-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S200x128 : Shape := ⟨2, ![200, 128]⟩
abbrev S128x1 : Shape := ⟨2, ![128, 1]⟩

abbrev nBuf : Space → Nat
  | .hbm => 6
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S128x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x10000, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S1x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let c2_i32 : BitVec 32 := 2#32
  let arg0 : BitVec 32 := BitVec.ofNat 32 (i 0).val
  let v17 : BitVec 32 := Scalar.muli c2_i32 arg0
  let c200_i32 : BitVec 32 := 200#32
  let v18 : BitVec 32 := Scalar.muli v17 c200_i32
  let v19 : Index := Scalar.indexCast v18
  let c0_13 : Index := 0#32
  ![v19.toNat, 0]
def k0_off2 (i : grid0.Coords) : Fin 2 → Nat :=
  let c2_i32_14 : BitVec 32 := 2#32
  let arg0 : BitVec 32 := BitVec.ofNat 32 (i 0).val
  let v23 : BitVec 32 := Scalar.muli c2_i32_14 arg0
  let c1_i32 : BitVec 32 := 1#32
  let v24 : BitVec 32 := Scalar.addi v23 c1_i32
  let c200_i32_15 : BitVec 32 := 200#32
  let v25 : BitVec 32 := Scalar.muli v24 c200_i32_15
  let v26 : Index := Scalar.indexCast v25
  let c0_16 : Index := 0#32
  ![v26.toNat, 0]
def k0_cond2 (i : grid0.Coords) : BitVec 1 :=
  let arg0 : BitVec 32 := BitVec.ofNat 32 (i 0).val
  let c24_i32 : BitVec 32 := 24#32
  let v40 : BitVec 1 := Scalar.cmpi .eq arg0 c24_i32
  let v41 : BitVec 32 := Scalar.extui v40
  let c0_i32_23 : BitVec 32 := 0#32
  let v42 : BitVec 1 := Scalar.cmpi .ne v41 c0_i32_23
  v42

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S200x10000_S200x10000_0_0 : ∀ a, (![0, 0] : Fin 2 → Nat) a + S200x10000.size a ≤ S200x10000.size a
  h_S200x10000 : 0 < S200x10000.numel
  broadcasts_S1x128_S200x128 : S1x128.Broadcasts S200x128
  h_S200x128 : 0 < S200x128.numel
  shapeCasts_S200x128_S200x128 : S200x128.ShapeCasts S200x128
  reduces_S200x128_S128 : S200x128.Reduces [0] S128
  broadcasts_S1x128_S10000x128 : S1x128.Broadcasts S10000x128
  reduces_S10000x128_S128 : S10000x128.Reduces [0] S128
  transposes_S1x128_p1_0_S128x1 : S1x128.Transposes [1, 0] S128x1
  broadcasts_S128x1_S128x128 : S128x1.Broadcasts S128x128
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S10000x128_S10000x128_S128x128_0_0_1_1_n_n_wf : DotDims.WF S10000x128 S10000x128 S128x128 [0] [0] [1] [1] [] []
  hrank0 : 0 < grid0.rank
  k0_off1_inb : ∀ i : grid0.Coords, ∀ a, (k0_off1 i) a + S200x128.size a ≤ S10000x128.size a
  k0_off2_inb : ∀ i : grid0.Coords, ∀ a, (k0_off2 i) a + S200x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S10000x128_S10000x128_S128x128_0_0_1_1_n_n : DotDims S10000x128 S10000x128 S128x128 where
  lhsContracting := [0]
  rhsContracting := [0]
  lhsNonContracting := [1]
  rhsNonContracting := [1]
  lhsBatch := []
  rhsBatch := []
  wf := dot_S10000x128_S10000x128_S128x128_0_0_1_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S200x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S128x10000 : Shape := ⟨2, ![128, 10000]⟩

abbrev nBuf : Space → Nat
  | .hbm => 25
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S128x10000, .f32⟩
  | .hbm, ⟨24, _⟩ => ⟨S128x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S128_d0 : S10000x128.ReducesTo [0] S128
  h_S_ : 0 < S_.numel
  bcast_S_S128 : S_.BroadcastsInDim S128 (![] : Fin 0 → Fin S128.rank)
  transposes_S10000x128_S128x10000_1_0 : S10000x128.Transposes [1, 0] S128x10000
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S128x10000_S10000x128_S128x128_1_0_0_1_n_n_wf : DotDims.WF S128x10000 S10000x128 S128x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S128x10000_S10000x128_S128x128_1_0_0_1_n_n : DotDims S128x10000 S10000x128 S128x128 where
  lhsContracting := [1]
  rhsContracting := [0]
  lhsNonContracting := [0]
  rhsNonContracting := [1]
  lhsBatch := []
  rhsBatch := []
  wf := dot_S128x10000_S10000x128_S128x128_1_0_0_1_n_n_wf

class Facts : Prop extends Facts₀ where

variable [Facts]
-- ==== Proof.K.Kit.lean ====
/-
  What the three control cases of the decoder kernel share.

  The kernel's grid has 25 points. Point `t` reads rows [400 t, 400 t + 200) and [400 t + 200, 400 t + 400) of the adjacency
  through two windows onto the ONE adjacency array, keeps `support = x · w`, the rows of `gcn` computed so far and the running
  column maximum in three scratch buffers, and writes the result only at the last point. This file names what every case is
  stated over: the arrays as the kernel region finds them (after the one host operation before it, a reshape of the bias),
  each window's block of its array, the two branch conditions in closed form over the grid, where the output window is idle,
  and the staging and scratch memrefs.
-/
import proofs.«151730_g15607911154264_cont_week2b_145_8_alg».proof.Proof.Gen.Kernel.Launch
import proofs.«151730_g15607911154264_cont_week2b_145_8_alg».proof.Proof.Gen.Kernel.Skeleton
import proofs.«151730_g15607911154264_cont_week2b_145_8_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the kernel region is entered: after the reshape of the bias. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the kernel region: the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only its own result: each argument array is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The branch conditions, decided over the grid -/

/-- The first branch (set `support`, reset the running maximum) is taken when the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second branch (the softmax and the final contraction) is taken when the grid coordinate is 24. -/
abbrev cond0_1 (i : grid0.Coords) : Prop := k0_cond2 i = 1#1
theorem hcond0_1 : ∀ t : Fin cfg0.N, cond0_1 (grid0.coords t) ↔ t.val = 24 :=
  (by decide +kernel : ∀ t : Fin grid0.N, cond0_1 (grid0.coords t) ↔ t.val = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Off the last point the body stores nothing into the output window, and the pipeline does not write it back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last point it stores the whole block. -/
theorem liveAt0_5 : ∀ t : Fin cfg0.N, cond0_1 (grid0.coords t) → cfg0.idle 5 (grid0.coords t) = false := by decide +kernel

/-! ## The staging and scratch memrefs -/

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S200x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S200x10000 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
/-- The three scratch buffers: `support`, the rows of `gcn`, the running column maximum. -/
abbrev scM0_0 : Memref sig .tc .vmem S10000x128 .f32 := Memref.whole cc0_scratch0
abbrev scM0_1 : Memref sig .tc .vmem S10000x128 .f32 := Memref.whole cc0_scratch1
abbrev scM0_2 : Memref sig .tc .vmem S1x128 .f32 := Memref.whole cc0_scratch2
abbrev hsc0_0 : (scM0_0).IsWhole := Memref.isWhole_whole _
abbrev hsc0_1 : (scM0_1).IsWhole := Memref.isWhole_whole _
abbrev hsc0_2 : (scM0_2).IsWhole := Memref.isWhole_whole _

/-- What the region hands the body beside the windows: the three scratch buffers, each at some contents. -/
theorem rest0_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d)) := by
  rw [scopedRest0_eq]; simp only [scM0_0, scM0_1, scM0_2, owns_whole]; try rfl

end Cert.Kernel.Hand

end
-- ==== Proof.K.Values.lean ====
/-
  The contents the decoder kernel keeps and produces, as functions of the arrays the region finds.

  `supp` is what the first point stores into the first scratch buffer (x · w); `g0 t` and `g1 t` are the two 200-row blocks of
  gcn point `t` stores into the second (rows 400 t ‥ 400 t + 199 and 400 t + 200 ‥ 400 t + 399); `mAfter n` is the running column
  maximum after point `n`; `gcnArr` is the whole gcn array assembled from the blocks; `outv` is the block the last point
  stores into the output window. `GcnRows k g` says that an array `g` agrees with `gcnArr` on its first 400 k rows: what is
  known of the second scratch buffer after `k` points, whatever it held before the first.
-/
import proofs.«151730_g15607911154264_cont_week2b_145_8_alg».proof.Proof.K.Kit
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- Point number `n` of the grid (taken modulo the 25 points). -/
def pt (n : ℕ) : Fin cfg0.N := ⟨n % 25, lt_of_lt_of_eq (Nat.mod_lt n (by norm_num)) N_0.symm⟩
theorem pt_val (n : ℕ) (h : n < 25) : (pt n).val = n := Nat.mod_eq_of_lt h
theorem pt_eq (t : Fin cfg0.N) : pt t.val = t := Fin.ext (Nat.mod_eq_of_lt (lt_of_lt_of_eq t.isLt N_0))

/-- The five input windows' blocks at a point, at their literal types. -/
abbrev bX (c : Dev nD) (t : Fin cfg0.N) : Vec F S10000x128 .f32 := iblk m c 0 t
abbrev bW (c : Dev nD) (t : Fin cfg0.N) : Vec F S128x128 .f32 := iblk m c 1 t
abbrev bB (c : Dev nD) (t : Fin cfg0.N) : Vec F S1x128 .f32 := iblk m c 2 t
abbrev bA0 (c : Dev nD) (t : Fin cfg0.N) : Vec F S200x10000 .f32 := iblk m c 3 t
abbrev bA1 (c : Dev nD) (t : Fin cfg0.N) : Vec F S200x10000 .f32 := iblk m c 4 t

/-- support = x · w, as the first point computes it. -/
def supp (c : Dev nD) : Vec F S10000x128 .f32 := k0_pay3 (bX m c (pt 0)) (bW m c (pt 0))
/-- Point `t`'s two blocks of gcn. -/
def g0 (c : Dev nD) (t : Fin cfg0.N) : Vec F S200x128 .f32 := k0_pay7 (bA0 m c t) (supp m c) (bB m c t)
def g1 (c : Dev nD) (t : Fin cfg0.N) : Vec F S200x128 .f32 := k0_pay8 (bA1 m c t) (supp m c) (bB m c t)
/-- One point's update of the running column maximum. -/
def mStep (c : Dev nD) (t : Fin cfg0.N) (prev : Vec F S1x128 .f32) : Vec F S1x128 .f32 :=
  k0_pay1 (k0_pay6 (bA1 m c t) (supp m c) (bB m c t)) (k0_pay9 (bA0 m c t) (supp m c) (bB m c t)) prev
/-- The running column maximum after point `n`. -/
def mAfter (c : Dev nD) : ℕ → Vec F S1x128 .f32
  | 0 => mStep m c (pt 0) (k0_pay4 (F := F))
  | n + 1 => mStep m c (pt (n + 1)) (mAfter c n)
/-- gcn, assembled from the points' blocks: row r is row r mod 400 of point r / 400's first block, or row r mod 400 − 200 of its second. -/
def gcnArr (c : Dev nD) : Vec F S10000x128 .f32 := fun y =>
  if h : (y 0).val % 400 < 200 then g0 m c (pt ((y 0).val / 400)) (ix2 ⟨(y 0).val % 400, h⟩ ⟨(y 1).val, (y 1).isLt⟩)
  else g1 m c (pt ((y 0).val / 400)) (ix2 ⟨(y 0).val % 400 - 200, by have := Nat.mod_lt (y 0).val (show 0 < 400 by norm_num); omega⟩ ⟨(y 1).val, (y 1).isLt⟩)
/-- `g` agrees with gcn on its first 400 k rows. -/
def GcnRows (c : Dev nD) (k : ℕ) (g : Vec F S10000x128 .f32) : Prop := ∀ y : S10000x128.Idx, (y 0).val < 400 * k → g y = gcnArr m c y
/-- The block the last point stores into the output window. -/
def outv (c : Dev nD) : Vec F S128x128 .f32 := k0_pay2 (gcnArr m c) (mAfter m c 24) (bX m c (pt 24))

end Cert.Kernel.Hand

end
-- ==== Proof.K.Dats.lean ====
/-
  The proof data of the decoder kernel's pipeline.

  What each window's staging buffer holds after the body at each point (an input window its block; the output window, at the
  last point, the result block), and the invariant carried from point to point: before the first point the three scratch
  buffers hold anything; after point n the first holds `support`, the second agrees with gcn on its first 400 (n + 1) rows,
  the third holds the running column maximum after point n. The two adjacency windows read ONE array: each holds half of it.
-/
import proofs.«151730_g15607911154264_cont_week2b_145_8_alg».proof.Proof.K.Values

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The region invariant before position `n`. -/
def PhiS (c : Dev nD) : (n : ℕ) → n ≤ cfg0.N → sProp 𝕄
  | 0, _ => iprop((∃ d, owns (c : Thread nD τ) scM0_0 fullShare d) ∗ (∃ d, owns (c : Thread nD τ) scM0_1 fullShare d) ∗ (∃ d, owns (c : Thread nD τ) scM0_2 fullShare d))
  | n + 1, _ => iprop(owns (c : Thread nD τ) scM0_0 fullShare (supp m c)
      ∗ (∃ g, ⌜GcnRows m c (n + 1) g⌝ ∗ owns (c : Thread nD τ) scM0_1 fullShare g)
      ∗ owns (c : Thread nD τ) scM0_2 fullShare (mAfter m c n))

theorem PhiS_zero (c : Dev nD) (n : ℕ) (h : n ≤ cfg0.N) (hz : n = 0) :
    PhiS m c n h = iprop((∃ d, owns (c : Thread nD τ) scM0_0 fullShare d) ∗ (∃ d, owns (c : Thread nD τ) scM0_1 fullShare d) ∗ (∃ d, owns (c : Thread nD τ) scM0_2 fullShare d)) := by
  subst hz; rfl

theorem PhiS_succ (c : Dev nD) (n : ℕ) (hn : n < cfg0.N) :
    PhiS m c (n + 1) hn = iprop(owns (c : Thread nD τ) scM0_0 fullShare (supp m c)
      ∗ (∃ g, ⌜GcnRows m c (n + 1) g⌝ ∗ owns (c : Thread nD τ) scM0_1 fullShare g)
      ∗ owns (c : Thread nD τ) scM0_2 fullShare (mAfter m c n)) := rfl

theorem PhiS_pos (c : Dev nD) (n : ℕ) (h : n ≤ cfg0.N) (hz : n ≠ 0) :
    PhiS m c n h = iprop(owns (c : Thread nD τ) scM0_0 fullShare (supp m c)
      ∗ (∃ g, ⌜GcnRows m c n g⌝ ∗ owns (c : Thread nD τ) scM0_1 fullShare g)
      ∗ owns (c : Thread nD τ) scM0_2 fullShare (mAfter m c (n - 1))) := by
  cases n with
  | zero => exact absurd rfl hz
  | succ n => rfl

/-- The running maximum after a later point is one update of the one after the point before; -/
theorem mAfter_pos (c : Dev nD) (t : Fin cfg0.N) (h0 : t.val ≠ 0) : mAfter m c t.val = mStep m c t (mAfter m c (t.val - 1)) := by
  obtain ⟨n, hn⟩ := t
  cases n with
  | zero => exact absurd rfl h0
  | succ n => show mStep m c (pt (n + 1)) (mAfter m c n) = mStep m c ⟨n + 1, hn⟩ (mAfter m c n); rw [pt_eq ⟨n + 1, hn⟩]
/-- after the first, one update of −∞. -/
theorem mAfter_zero (c : Dev nD) (t : Fin cfg0.N) (h0 : t.val = 0) : mAfter m c t.val = mStep m c t (k0_pay4 (F := F)) := by
  obtain ⟨n, hn⟩ := t
  cases n with
  | zero => show mStep m c (pt 0) _ = mStep m c ⟨0, hn⟩ _; rw [pt_eq ⟨0, hn⟩]
  | succ n => exact absurd h0 (Nat.succ_ne_zero n)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outv m c
  Φ t := PhiS m c t.val (Nat.le_of_lt_succ t.isLt)
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outv m c := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.Kernel.Hand

end
-- ==== Proof.K.RunA.lean ====
/-
  The kernel's body at the first point of the grid (the first branch taken, the second not).

  The three scratch buffers hold anything. The body computes `support = x · w` into the first, resets the running column
  maximum to −∞ in the third, then does what every point does: the two adjacency blocks times `support` plus the bias go
  to the second scratch at rows 0‥199 and 200‥399, and the running maximum becomes the two blocks' column maximum.
-/
import proofs.«151730_g15607911154264_cont_week2b_145_8_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces stored into the three scratch buffers at the first point, with the proof that the body runs there. -/
noncomputable def kernelRun0_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : cond0_0 i) (hc1 : ¬cond0_1 i)
    (x1 : Vec F S10000x128 .f32) (x2 : Vec F S128x128 .f32) (x3 : Vec F S1x128 .f32) (x4 x5 : Vec F S200x10000 .f32)
    (xs8 : Vec F S10000x128 .f32) :
    Σ' (LS7 : List (View.Piece (Elt F) S10000x128 .f32)) (LS8 : List (View.Piece (Elt F) S10000x128 .f32)), { LS9 : List (View.Piece (Elt F) S1x128 .f32) //
      ∀ (xi6 : Vec F S128x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi6
            ∗ (∃ d, owns (c : Thread nD τ) arg7 fullShare d) ∗ owns (c : Thread nD τ) arg8 fullShare xs8 ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi6
                ∗ (∃ f, arg7.view.loc (c : Thread nD τ) ↦[arg7.view.set]{fullShare} arg7.view.writes (Elt F) f LS7)
                ∗ (arg8.view.loc (c : Thread nD τ) ↦[arg8.view.set]{fullShare} arg8.view.writes (Elt F) (harg8.unread xs8) LS8)
                ∗ (∃ f, arg9.view.loc (c : Thread nD τ) ↦[arg9.view.set]{fullShare} arg9.view.writes (Elt F) f LS9)) -∗ K ⟨⟩))
          ⊢ wp frame (wpE (defs₀ (F := F)) Variants.none c none) E (cc0__decoder_kernel i arg1 harg1 arg2 harg2 arg3 harg3 arg4 harg4 arg5 harg5 arg6 harg6 arg7 harg7 arg8 harg8 arg9 harg9) K } := by
  refine ⟨?_, ?_, ?_, fun xi6 E K => ?run⟩
  case run =>
    simp only [cc0__decoder_kernel_eq_skeleton]; unfold cc0__decoder_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexact H8
    iexists _; iexact H9

end Cert.Kernel.Hand

end
-- ==== Proof.K.RunB.lean ====
/-
  The kernel's body at a middle point of the grid (neither branch taken).

  With `support` in the first scratch buffer, the rows of gcn computed so far in the second and the running column maximum in
  the third, the body multiplies its two adjacency blocks by `support`, adds the bias, stores the two 200-row results into the
  second scratch at the point's two row offsets, and replaces the running maximum by its maximum with the two blocks' column
  maxima. The pieces it stores are found by running the body symbolically.
-/
import proofs.«151730_g15607911154264_cont_week2b_145_8_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces stored into the gcn scratch and into the running maximum at a middle point, with the proof that the body
    runs there: inputs and `support` are handed back as found, the output window's buffer untouched. -/
noncomputable def kernelRun0_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : ¬cond0_0 i) (hc1 : ¬cond0_1 i)
    (x1 : Vec F S10000x128 .f32) (x2 : Vec F S128x128 .f32) (x3 : Vec F S1x128 .f32) (x4 x5 : Vec F S200x10000 .f32)
    (xs7 xs8 : Vec F S10000x128 .f32) (xs9 : Vec F S1x128 .f32) :
    Σ' (LS8 : List (View.Piece (Elt F) S10000x128 .f32)), { LS9 : List (View.Piece (Elt F) S1x128 .f32) //
      ∀ (xi6 : Vec F S128x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi6
            ∗ owns (c : Thread nD τ) arg7 fullShare xs7 ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi6
                ∗ owns (c : Thread nD τ) arg7 fullShare xs7
                ∗ (arg8.view.loc (c : Thread nD τ) ↦[arg8.view.set]{fullShare} arg8.view.writes (Elt F) (harg8.unread xs8) LS8)
                ∗ (arg9.view.loc (c : Thread nD τ) ↦[arg9.view.set]{fullShare} arg9.view.writes (Elt F) (harg9.unread xs9) LS9)) -∗ K ⟨⟩))
          ⊢ wp frame (wpE (defs₀ (F := F)) Variants.none c none) E (cc0__decoder_kernel i arg1 harg1 arg2 harg2 arg3 harg3 arg4 harg4 arg5 harg5 arg6 harg6 arg7 harg7 arg8 harg8 arg9 harg9) K } := by
  refine ⟨?_, ?_, fun xi6 E K => ?run⟩
  case run =>
    simp only [cc0__decoder_kernel_eq_skeleton]; unfold cc0__decoder_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    iexact H9

end Cert.Kernel.Hand

end
-- ==== Proof.K.RunC.lean ====
/-
  The kernel's body at the last point of the grid (the second branch taken, the first not).

  After the stores every point makes — the point's two 200-row blocks of gcn, the running column maximum — the body reads the
  whole gcn scratch and the maximum back, exponentiates gcn minus the maximum, sums the exponentials down each column,
  contracts them with the node features over the nodes, divides by the column sums and stores the 128 × 128 result into
  the output window's buffer.
-/
import proofs.«151730_g15607911154264_cont_week2b_145_8_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces stored into the output window's buffer, the gcn scratch and the running maximum at the last point, with the
    proof that the body runs there. -/
noncomputable def kernelRun0_C (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : ¬cond0_0 i) (hc1 : cond0_1 i)
    (x1 : Vec F S10000x128 .f32) (x2 : Vec F S128x128 .f32) (x3 : Vec F S1x128 .f32) (x4 x5 : Vec F S200x10000 .f32)
    (xs7 xs8 : Vec F S10000x128 .f32) (xs9 : Vec F S1x128 .f32) :
    Σ' (L6 : List (View.Piece (Elt F) S128x128 .f32)) (LS8 : List (View.Piece (Elt F) S10000x128 .f32)), { LS9 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
            ∗ owns (c : Thread nD τ) arg7 fullShare xs7 ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ owns (c : Thread nD τ) arg7 fullShare xs7
                ∗ (arg8.view.loc (c : Thread nD τ) ↦[arg8.view.set]{fullShare} arg8.view.writes (Elt F) (harg8.unread xs8) LS8)
                ∗ (arg9.view.loc (c : Thread nD τ) ↦[arg9.view.set]{fullShare} arg9.view.writes (Elt F) (harg9.unread xs9) LS9)) -∗ K ⟨⟩))
          ⊢ wp frame (wpE (defs₀ (F := F)) Variants.none c none) E (cc0__decoder_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__decoder_kernel_eq_skeleton]; unfold cc0__decoder_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]; · iexact H8
    iexact H9

end Cert.Kernel.Hand

end
-- ==== Proof.K.Pieces.lean ====
/-
  What the three cases store, piece by piece.

  The symbolic runs find the stored pieces; here each list is read off: every piece is a store, through a literal rectangle,
  of one of the body's named payloads applied to the contents the run was started from (a load of a whole buffer reads its
  contents; a load after a whole store reads what was stored).
-/
import proofs.«151730_g15607911154264_cont_week2b_145_8_alg».proof.Proof.K.RunA
import proofs.«151730_g15607911154264_cont_week2b_145_8_alg».proof.Proof.K.RunB
import proofs.«151730_g15607911154264_cont_week2b_145_8_alg».proof.Proof.K.RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl

/-- After a store of a whole buffer, last, the buffer reads the stored value, whatever it held and whatever was stored before. -/
theorem read_writes_unit_zero {sig' : RefSig} {κ : Kind} {sp : Space} {S : Shape} {e : EltTy} {Val : EltTy → Type}
    (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-! ## The first point -/

theorem LS7_A_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : cond0_0 i) (hc1 : ¬cond0_1 i) (x1 : Vec F S10000x128 .f32) (x2 : Vec F S128x128 .f32) (x3 : Vec F S1x128 .f32) (x4 x5 : Vec F S200x10000 .f32) (xs8 : Vec F S10000x128 .f32) :
    (kernelRun0_A (F := F) c i arg1 harg1 arg2 harg2 arg3 harg3 arg4 harg4 arg5 harg5 arg6 harg6 arg7 harg7 arg8 harg8 arg9 harg9 hc0 hc1 x1 x2 x3 x4 x5 xs8).1
      = [⟨Rect.unit (s := S10000x128) ![0, 0] S10000x128.size Facts₀.inb_S10000x128_S10000x128_0_0, k0_pay3 x1 x2⟩] := by
  unfold kernelRun0_A
  dsimp only
  sl_unfold_run_names
  simp only [View.readAt_eq_ld, Memref.IsWhole.read_unread, View.ld_unit_zero (S := S200x10000) hz2, View.ld_unit_zero (S := S10000x128) hz2, View.ld_unit_zero (S := S1x128) hz2, View.ld_unit_zero (S := S128x128) hz2, View.readCov_unit_zero (S := S10000x128) _ hz2, View.readCov_unit_zero (S := S1x128) _ hz2]

theorem LS8_A_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : cond0_0 i) (hc1 : ¬cond0_1 i) (x1 : Vec F S10000x128 .f32) (x2 : Vec F S128x128 .f32) (x3 : Vec F S1x128 .f32) (x4 x5 : Vec F S200x10000 .f32) (xs8 : Vec F S10000x128 .f32) :
    (kernelRun0_A (F := F) c i arg1 harg1 arg2 harg2 arg3 harg3 arg4 harg4 arg5 harg5 arg6 harg6 arg7 harg7 arg8 harg8 arg9 harg9 hc0 hc1 x1 x2 x3 x4 x5 xs8).2.1
      = [⟨Rect.unit (s := S10000x128) (k0_off2 i) S200x128.size (Facts₀.k0_off2_inb i), k0_pay8 x5 (k0_pay3 x1 x2) x3⟩,
         ⟨Rect.unit (s := S10000x128) (k0_off1 i) S200x128.size (Facts₀.k0_off1_inb i), k0_pay7 x4 (k0_pay3 x1 x2) x3⟩] := by
  unfold kernelRun0_A
  dsimp only
  sl_unfold_run_names
  simp only [View.readAt_eq_ld, Memref.IsWhole.read_unread, View.ld_unit_zero (S := S200x10000) hz2, View.ld_unit_zero (S := S10000x128) hz2, View.ld_unit_zero (S := S1x128) hz2, View.ld_unit_zero (S := S128x128) hz2, View.readCov_unit_zero (S := S10000x128) _ hz2, View.readCov_unit_zero (S := S1x128) _ hz2]

theorem LS9_A_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : cond0_0 i) (hc1 : ¬cond0_1 i) (x1 : Vec F S10000x128 .f32) (x2 : Vec F S128x128 .f32) (x3 : Vec F S1x128 .f32) (x4 x5 : Vec F S200x10000 .f32) (xs8 : Vec F S10000x128 .f32) :
    (kernelRun0_A (F := F) c i arg1 harg1 arg2 harg2 arg3 harg3 arg4 harg4 arg5 harg5 arg6 harg6 arg7 harg7 arg8 harg8 arg9 harg9 hc0 hc1 x1 x2 x3 x4 x5 xs8).2.2.1
      = [⟨Rect.unit (s := S1x128) ![0, 0] S1x128.size Facts₀.inb_S1x128_S1x128_0_0, k0_pay1 (k0_pay6 x5 (k0_pay3 x1 x2) x3) (k0_pay9 x4 (k0_pay3 x1 x2) x3) (k0_pay4 (F := F))⟩,
         ⟨Rect.unit (s := S1x128) ![0, 0] S1x128.size Facts₀.inb_S1x128_S1x128_0_0, k0_pay4 (F := F)⟩] := by
  unfold kernelRun0_A
  dsimp only
  sl_unfold_run_names
  simp only [View.readAt_eq_ld, Memref.IsWhole.read_unread, View.ld_unit_zero (S := S200x10000) hz2, View.ld_unit_zero (S := S10000x128) hz2, View.ld_unit_zero (S := S1x128) hz2, View.ld_unit_zero (S := S128x128) hz2, View.readCov_unit_zero (S := S10000x128) _ hz2, View.readCov_unit_zero (S := S1x128) _ hz2]

/-! ## A middle point -/

theorem LS8_B_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : ¬cond0_0 i) (hc1 : ¬cond0_1 i) (x1 : Vec F S10000x128 .f32) (x2 : Vec F S128x128 .f32) (x3 : Vec F S1x128 .f32) (x4 x5 : Vec F S200x10000 .f32) (xs7 xs8 : Vec F S10000x128 .f32) (xs9 : Vec F S1x128 .f32) :
    (kernelRun0_B (F := F) c i arg1 harg1 arg2 harg2 arg3 harg3 arg4 harg4 arg5 harg5 arg6 harg6 arg7 harg7 arg8 harg8 arg9 harg9 hc0 hc1 x1 x2 x3 x4 x5 xs7 xs8 xs9).1
      = [⟨Rect.unit (s := S10000x128) (k0_off2 i) S200x128.size (Facts₀.k0_off2_inb i), k0_pay8 x5 xs7 x3⟩,
         ⟨Rect.unit (s := S10000x128) (k0_off1 i) S200x128.size (Facts₀.k0_off1_inb i), k0_pay7 x4 xs7 x3⟩] := by
  unfold kernelRun0_B
  dsimp only
  sl_unfold_run_names
  simp only [View.readAt_eq_ld, Memref.IsWhole.read_unread, View.ld_unit_zero (S := S200x10000) hz2, View.ld_unit_zero (S := S10000x128) hz2, View.ld_unit_zero (S := S1x128) hz2, View.ld_unit_zero (S := S128x128) hz2, View.readCov_unit_zero (S := S10000x128) _ hz2, View.readCov_unit_zero (S := S1x128) _ hz2]

theorem LS9_B_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : ¬cond0_0 i) (hc1 : ¬cond0_1 i) (x1 : Vec F S10000x128 .f32) (x2 : Vec F S128x128 .f32) (x3 : Vec F S1x128 .f32) (x4 x5 : Vec F S200x10000 .f32) (xs7 xs8 : Vec F S10000x128 .f32) (xs9 : Vec F S1x128 .f32) :
    (kernelRun0_B (F := F) c i arg1 harg1 arg2 harg2 arg3 harg3 arg4 harg4 arg5 harg5 arg6 harg6 arg7 harg7 arg8 harg8 arg9 harg9 hc0 hc1 x1 x2 x3 x4 x5 xs7 xs8 xs9).2.1
      = [⟨Rect.unit (s := S1x128) ![0, 0] S1x128.size Facts₀.inb_S1x128_S1x128_0_0, k0_pay1 (k0_pay6 x5 xs7 x3) (k0_pay9 x4 xs7 x3) xs9⟩] := by
  unfold kernelRun0_B
  dsimp only
  sl_unfold_run_names
  simp only [View.readAt_eq_ld, Memref.IsWhole.read_unread, View.ld_unit_zero (S := S200x10000) hz2, View.ld_unit_zero (S := S10000x128) hz2, View.ld_unit_zero (S := S1x128) hz2, View.ld_unit_zero (S := S128x128) hz2, View.readCov_unit_zero (S := S10000x128) _ hz2, View.readCov_unit_zero (S := S1x128) _ hz2]

/-! ## The last point -/

theorem L6_C_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : ¬cond0_0 i) (hc1 : cond0_1 i) (x1 : Vec F S10000x128 .f32) (x2 : Vec F S128x128 .f32) (x3 : Vec F S1x128 .f32) (x4 x5 : Vec F S200x10000 .f32) (xs7 xs8 : Vec F S10000x128 .f32) (xs9 : Vec F S1x128 .f32) :
    (kernelRun0_C (F := F) c i arg1 harg1 arg2 harg2 arg3 harg3 arg4 harg4 arg5 harg5 arg6 harg6 arg7 harg7 arg8 harg8 arg9 harg9 hc0 hc1 x1 x2 x3 x4 x5 xs7 xs8 xs9).1
      = [⟨Rect.unit (s := S128x128) ![0, 0] S128x128.size Facts₀.inb_S128x128_S128x128_0_0,
          k0_pay2 (arg8.view.read (Elt F) (arg8.view.writes (Elt F) (harg8.unread xs8)
              [⟨Rect.unit (s := S10000x128) (k0_off2 i) S200x128.size (Facts₀.k0_off2_inb i), k0_pay8 x5 xs7 x3⟩,
               ⟨Rect.unit (s := S10000x128) (k0_off1 i) S200x128.size (Facts₀.k0_off1_inb i), k0_pay7 x4 xs7 x3⟩]))
            (k0_pay1 (k0_pay6 x5 xs7 x3) (k0_pay9 x4 xs7 x3) xs9) x1⟩] := by
  unfold kernelRun0_C
  dsimp only
  sl_unfold_run_names
  simp only [View.readAt_eq_ld, Memref.IsWhole.read_unread, View.ld_unit_zero (S := S200x10000) hz2, View.ld_unit_zero (S := S10000x128) hz2, View.ld_unit_zero (S := S1x128) hz2, View.ld_unit_zero (S := S128x128) hz2, View.readCov_unit_zero (S := S10000x128) _ hz2, View.readCov_unit_zero (S := S1x128) _ hz2]

theorem LS8_C_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : ¬cond0_0 i) (hc1 : cond0_1 i) (x1 : Vec F S10000x128 .f32) (x2 : Vec F S128x128 .f32) (x3 : Vec F S1x128 .f32) (x4 x5 : Vec F S200x10000 .f32) (xs7 xs8 : Vec F S10000x128 .f32) (xs9 : Vec F S1x128 .f32) :
    (kernelRun0_C (F := F) c i arg1 harg1 arg2 harg2 arg3 harg3 arg4 harg4 arg5 harg5 arg6 harg6 arg7 harg7 arg8 harg8 arg9 harg9 hc0 hc1 x1 x2 x3 x4 x5 xs7 xs8 xs9).2.1
      = [⟨Rect.unit (s := S10000x128) (k0_off2 i) S200x128.size (Facts₀.k0_off2_inb i), k0_pay8 x5 xs7 x3⟩,
         ⟨Rect.unit (s := S10000x128) (k0_off1 i) S200x128.size (Facts₀.k0_off1_inb i), k0_pay7 x4 xs7 x3⟩] := by
  unfold kernelRun0_C
  dsimp only
  sl_unfold_run_names
  simp only [View.readAt_eq_ld, Memref.IsWhole.read_unread, View.ld_unit_zero (S := S200x10000) hz2, View.ld_unit_zero (S := S10000x128) hz2, View.ld_unit_zero (S := S1x128) hz2, View.ld_unit_zero (S := S128x128) hz2, View.readCov_unit_zero (S := S10000x128) _ hz2, View.readCov_unit_zero (S := S1x128) _ hz2]

theorem LS9_C_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : ¬cond0_0 i) (hc1 : cond0_1 i) (x1 : Vec F S10000x128 .f32) (x2 : Vec F S128x128 .f32) (x3 : Vec F S1x128 .f32) (x4 x5 : Vec F S200x10000 .f32) (xs7 xs8 : Vec F S10000x128 .f32) (xs9 : Vec F S1x128 .f32) :
    (kernelRun0_C (F := F) c i arg1 harg1 arg2 harg2 arg3 harg3 arg4 harg4 arg5 harg5 arg6 harg6 arg7 harg7 arg8 harg8 arg9 harg9 hc0 hc1 x1 x2 x3 x4 x5 xs7 xs8 xs9).2.2.1
      = [⟨Rect.unit (s := S1x128) ![0, 0] S1x128.size Facts₀.inb_S1x128_S1x128_0_0, k0_pay1 (k0_pay6 x5 xs7 x3) (k0_pay9 x4 xs7 x3) xs9⟩] := by
  unfold kernelRun0_C
  dsimp only
  sl_unfold_run_names
  simp only [View.readAt_eq_ld, Memref.IsWhole.read_unread, View.ld_unit_zero (S := S200x10000) hz2, View.ld_unit_zero (S := S10000x128) hz2, View.ld_unit_zero (S := S1x128) hz2, View.ld_unit_zero (S := S128x128) hz2, View.readCov_unit_zero (S := S10000x128) _ hz2, View.readCov_unit_zero (S := S1x128) _ hz2]

end Cert.Kernel.Hand

end
-- ==== Proof.K.GcnStep.lean ====
/-
  The rows of the second scratch buffer, one point at a time.

  Point `t` stores its two 200-row blocks at rows 400 t and 400 t + 200 of the 10000 × 128 buffer. The offsets are words the
  kernel computes; over the 25 points they are decided to be these closed forms. Storing the two blocks over contents that
  agree with gcn on the first 400 t rows leaves contents that agree with it on the first 400 (t + 1) rows, and after the
  25 points every row is gcn's.
-/
import proofs.«151730_g15607911154264_cont_week2b_145_8_alg».proof.Proof.K.Values
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- Point t's first block starts at row 400 t, its second at row 400 t + 200 (decided over the 25 points). -/
theorem k0_off1_eq : ∀ t : Fin cfg0.N, k0_off1 (grid0.coords t) = ![400 * t.val, 0] :=
  (by decide +kernel : ∀ t : Fin grid0.N, k0_off1 (grid0.coords t) = ![400 * t.val, 0])
theorem k0_off2_eq : ∀ t : Fin cfg0.N, k0_off2 (grid0.coords t) = ![400 * t.val + 200, 0] :=
  (by decide +kernel : ∀ t : Fin grid0.N, k0_off2 (grid0.coords t) = ![400 * t.val + 200, 0])

/-- Storing point t's two blocks over contents that agree with gcn on the first 400 t rows leaves contents that agree with it on the first 400 (t + 1) rows. -/
theorem gcnRows_step (c : Dev nD) (t : Fin cfg0.N) (v : View sig .tc .vmem S10000x128 .f32) (f : v.ty.Contents (Elt F))
    (hg : GcnRows m c t.val (v.read (Elt F) f)) :
    GcnRows m c (t.val + 1) (v.read (Elt F) (v.writes (Elt F) f
      [⟨Rect.unit (s := S10000x128) (k0_off2 (grid0.coords t)) S200x128.size (Facts₀.k0_off2_inb (grid0.coords t)), g1 m c t⟩,
       ⟨Rect.unit (s := S10000x128) (k0_off1 (grid0.coords t)) S200x128.size (Facts₀.k0_off1_inb (grid0.coords t)), g0 m c t⟩])) := by
  intro y hy
  have hN : t.val < 25 := lt_of_lt_of_eq t.isLt N_0
  have hy0 : (y 0).val < 10000 := (y 0).isLt
  have hy1 : (y 1).val < 128 := (y 1).isLt
  by_cases h2 : 400 * t.val + 200 ≤ (y 0).val
  · -- the row lies in the second block: the newest piece
    have hlt : (y 0).val - (400 * t.val + 200) < 200 := by omega
    have hmod : ¬ (y 0).val % 400 < 200 := by omega
    have hdiv : (y 0).val / 400 = t.val := by omega
    have e : pt ((y 0).val / 400) = t := by rw [hdiv]; exact pt_eq t
    refine (View.read_writes_cons_rows_of_mem v f (Facts₀.k0_off2_inb (grid0.coords t)) (g1 m c t) _ y
      (ix2 (n0 := 200) (n1 := 128) ⟨(y 0).val - (400 * t.val + 200), hlt⟩ ⟨(y 1).val, hy1⟩) (k0_off2_eq t)
      (by show (y 0).val = 400 * t.val + 200 + ((y 0).val - (400 * t.val + 200)); omega) rfl).trans ?_
    unfold gcnArr
    rw [dif_neg hmod, e]
    exact congrArg (g1 m c t) (funext fun a => Fin.ext (by
      match a with
      | ⟨0, _⟩ => show (y 0).val - (400 * t.val + 200) = (y 0).val % 400 - 200; omega
      | ⟨1, _⟩ => rfl))
  · by_cases h1 : 400 * t.val ≤ (y 0).val
    · -- the row lies in the first block: not the newest piece, the one before it
      have hlt : (y 0).val - 400 * t.val < 200 := by omega
      have hmod : (y 0).val % 400 < 200 := by omega
      have hdiv : (y 0).val / 400 = t.val := by omega
      have e : pt ((y 0).val / 400) = t := by rw [hdiv]; exact pt_eq t
      refine (View.read_writes_cons_rows_of_not_mem (W := 200) v f (Facts₀.k0_off2_inb (grid0.coords t)) (g1 m c t) _ y
        (k0_off2_eq t) rfl (Or.inl (by omega))).trans ?_
      refine (View.read_writes_cons_rows_of_mem v f (Facts₀.k0_off1_inb (grid0.coords t)) (g0 m c t) _ y
        (ix2 (n0 := 200) (n1 := 128) ⟨(y 0).val - 400 * t.val, hlt⟩ ⟨(y 1).val, hy1⟩) (k0_off1_eq t)
        (by show (y 0).val = 400 * t.val + ((y 0).val - 400 * t.val); omega) rfl).trans ?_
      unfold gcnArr
      rw [dif_pos hmod, e]
      exact congrArg (g0 m c t) (funext fun a => Fin.ext (by
        match a with
        | ⟨0, _⟩ => show (y 0).val - 400 * t.val = (y 0).val % 400; omega
        | ⟨1, _⟩ => rfl))
    · -- the row lies below both blocks: what was there before
      refine (View.read_writes_cons_rows_of_not_mem (W := 200) v f (Facts₀.k0_off2_inb (grid0.coords t)) (g1 m c t) _ y
        (k0_off2_eq t) rfl (Or.inl (by omega))).trans ?_
      refine (View.read_writes_cons_rows_of_not_mem (W := 200) v f (Facts₀.k0_off1_inb (grid0.coords t)) (g0 m c t) _ y
        (k0_off1_eq t) rfl (Or.inl (by omega))).trans ?_
      rw [View.writes_nil]
      exact hg y (by omega)

/-- After all 25 points every row is gcn's. -/
theorem gcnRows_all (c : Dev nD) (g : Vec F S10000x128 .f32) (h : GcnRows m c 25 g) : g = gcnArr m c :=
  funext fun y => h y (by have hy0 : (y 0).val < 10000 := (y 0).isLt; omega)

end Cert.Kernel.Hand

end
-- ==== Proof.K.Body.lean ====
/-
  The body obligation of the decoder kernel's pipeline: at every grid point the body runs from the invariant and the
  windows' blocks to the invariant at the next point.

  By cases on the point. At the first point the scratch buffers hold anything and the run fills them; at a middle point it
  extends the rows of gcn by the point's 400 and updates the running maximum; at the last point it also reads the now complete
  gcn back and stores the result block. The output window is idle off the last point: its buffer is handed back as found.
-/
import proofs.«151730_g15607911154264_cont_week2b_145_8_alg».proof.Proof.K.Dats
import proofs.«151730_g15607911154264_cont_week2b_145_8_alg».proof.Proof.K.Pieces
import proofs.«151730_g15607911154264_cont_week2b_145_8_alg».proof.Proof.K.GcnStep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hN : t.val < 25 := lt_of_lt_of_eq t.isLt N_0
  by_cases h0 : t.val = 0
  · -- the first point
    have hc0 : cond0_0 (grid0.coords t) := (hcond0_0 t).mpr h0
    have hc1 : ¬cond0_1 (grid0.coords t) := fun h => by have := (hcond0_1 t).mp h; omega
    have ht : t = pt 0 := by rw [← pt_eq t, h0]
    have hs : k0_pay3 (bX m c t) (bW m c t) = supp m c := by rw [ht]; rfl
    rw [Dat.leavesExact_idle (dats m 0 c) 5 t (idleAt0_5 t hc1) (noFlush0_5 t hc1)]
    rw [PhiS_castSucc m c t, PhiS_zero m c _ _ h0, mAfter_zero m c t h0]
    iintro ⟨⟨⟨%d7, HS0⟩, ⟨%g, HS1⟩, HS2⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ _ _ hc0 hc1 (bX m c t) (bW m c t) (bB m c t) (bA0 m c t) (bA1 m c t) g).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    isplitl [HS1]; · iexact HS1
    isplitl [HS2]; · iexact HS2
    iintro ⟨H0, H1, H2, H3, H4, H5, ⟨%e7, HS0⟩, HS1, ⟨%e9, HS2⟩⟩
    isplitl [HS0 HS1 HS2]
    · isplitl [HS0]
      · unfold owns; iexists _; isplitr
        swap; · iexact HS0
        ipureintro
        rw [LS7_A_eq, read_writes_unit_zero _ _ hz2, hs]
      isplitl [HS1]
      · iexists _; isplitr
        swap
        · unfold owns; iexists _; isplitr
          swap; · iexact HS1
          ipureintro; rfl
        ipureintro
        rw [LS8_A_eq, hs]
        exact gcnRows_step m c t scM0_1.view (hsc0_1.unread g) (fun y hy => absurd hy (by rw [h0]; omega))
      · unfold owns; iexists _; isplitr
        swap; · iexact HS2
        ipureintro
        rw [LS9_A_eq, read_writes_unit_zero _ _ hz2, hs]; rfl
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 24
    · -- the last point
      have hc0 : ¬cond0_0 (grid0.coords t) := fun h => h0 ((hcond0_0 t).mp h)
      have hc1 : cond0_1 (grid0.coords t) := (hcond0_1 t).mpr h1
      have ht : t = pt 24 := by rw [← pt_eq t, h1]
      rw [show (dats m 0 c).leavesExact 5 t = owns (c : Thread nD τ) (ms0_5 t) fullShare ((dats m 0 c).after 5 t) from by
        unfold Dat.leavesExact; rw [liveAt0_5 t hc1], after0_5]
      rw [PhiS_castSucc m c t, PhiS_pos m c _ _ h0, mAfter_pos m c t h0]
      iintro ⟨⟨HS0, ⟨%g, %hg, HS1⟩, HS2⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ _ _ hc0 hc1 (bX m c t) (bW m c t) (bB m c t) (bA0 m c t) (bA1 m c t) (supp m c) g (mAfter m c (t.val - 1))).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e6, H5⟩, HS0, HS1, HS2⟩
      have hstep := gcnRows_step m c t scM0_1.view (hsc0_1.unread g) (by rw [hsc0_1.read_unread]; exact hg)
      isplitl [HS0 HS1 HS2]
      · isplitl [HS0]; · iexact HS0
        isplitl [HS1]
        · iexists _; isplitr
          swap
          · unfold owns; iexists _; isplitr
            swap; · iexact HS1
            ipureintro; rfl
          ipureintro
          rw [LS8_C_eq]
          exact hstep
        · unfold owns; iexists _; isplitr
          swap; · iexact HS2
          ipureintro
          rw [LS9_C_eq, read_writes_unit_zero _ _ hz2]; rfl
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro
      rw [L6_C_eq, read_writes_unit_zero _ _ hz2]
      have hstep' := hstep
      rw [h1] at hstep'
      have hG := gcnRows_all m c _ hstep'
      refine (congrArg (fun G => k0_pay2 G (k0_pay1 (k0_pay6 (bA1 m c t) (supp m c) (bB m c t)) (k0_pay9 (bA0 m c t) (supp m c) (bB m c t)) (mAfter m c (t.val - 1))) (bX m c t)) hG).trans ?_
      unfold outv
      rw [show mAfter m c 24 = mStep m c t (mAfter m c (t.val - 1)) from by rw [← mAfter_pos m c t h0, h1]]
      rw [← ht]; rfl
    · -- a middle point
      have hc0 : ¬cond0_0 (grid0.coords t) := fun h => h0 ((hcond0_0 t).mp h)
      have hc1 : ¬cond0_1 (grid0.coords t) := fun h => h1 ((hcond0_1 t).mp h)
      rw [Dat.leavesExact_idle (dats m 0 c) 5 t (idleAt0_5 t hc1) (noFlush0_5 t hc1)]
      rw [PhiS_castSucc m c t, PhiS_pos m c _ _ h0, mAfter_pos m c t h0]
      iintro ⟨⟨HS0, ⟨%g, %hg, HS1⟩, HS2⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ hc0 hc1 (bX m c t) (bW m c t) (bB m c t) (bA0 m c t) (bA1 m c t) (supp m c) g (mAfter m c (t.val - 1))).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2]
      · isplitl [HS0]; · iexact HS0
        isplitl [HS1]
        · iexists _; isplitr
          swap
          · unfold owns; iexists _; isplitr
            swap; · iexact HS1
            ipureintro; rfl
          ipureintro
          rw [LS8_B_eq]
          exact gcnRows_step m c t scM0_1.view (hsc0_1.unread g) (by rw [hsc0_1.read_unread]; exact hg)
        · unfold owns; iexists _; isplitr
          swap; · iexact HS2
          ipureintro
          rw [LS9_B_eq, read_writes_unit_zero _ _ hz2]; rfl
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LibSharedTrack.lean ====
/-
  A frame run for a pipelined kernel whose input windows may SHARE an array and whose body carries named contents in
  its scratch buffers from one grid point to the next.

  The library's frame runs ask that the windows' arrays be pairwise distinct buffers. A kernel handed ONE array through
  several input windows holds it by parts: the buffer's full share is dealt among the windows that read it, and the
  certificate says how (`hsplit`). The region invariant `Φ t` is the certificate's own at every point: what the launch
  hands the region beside the windows — the core's scratch buffers, each whole at some contents — yields it before the
  first point (`hin`), and it yields them back after the last (`hout`). Every other unscoped buffer bypasses the region
  and is read back at the end. The conclusion is the library's `FramePost`: each window's array at `Dat.arrAt … N`, every
  other unscoped buffer at its contents at the region's entry.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run of a one-region program whose windows may share arrays, with an invariant the certificate states
    point by point: every weakly fair execution of @main on the TensorCores terminates, and every final state
    satisfies `FramePost`. -/
theorem θ_run_frame_shared_track (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec) (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by iintro H; isplitr; · iempintro
                       iexact H)
    (hin := fun c => (show iprop(iprop(emp) ∗ scopedRest (cfgs p).spec c) ⊢ (scopedRest (cfgs p).spec c : sProp 𝕄) from by
      iintro ⟨-, H⟩; iexact H).trans (hin c))
    (hout := fun c => (hout c).trans (by iintro H; isplitr; · iempintro
                                         iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.K.Launch.lean ====
/-
  The launch of the decoder kernel's program, its frame, and what its result array ends holding.

  The program is a reshape of the bias, then the kernel region. The two adjacency windows read ONE array: the launch hands
  the region that array whole, and each window takes half of it. From the library's run of the region: every argument array
  ends as launched, and the result array ends holding the block the last grid point stored.
-/
import proofs.«151730_g15607911154264_cont_week2b_145_8_alg».proof.Proof.K.Body
import proofs.«151730_g15607911154264_cont_week2b_145_8_alg».proof.Proof.LibSharedTrack

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One window's array as the pipeline holds it at entry: the buffer behind it, whole, at the window's share. -/
theorem arr_eq (c : Dev nD) (w : Fin cfg0.W) (q : PosShare TreeShare) (hq : (dats m 0 c).share w = q) :
    ((cfg0.win w).arr.view.loc (c : Thread nD τ) ↦[(cfg0.win w).arr.view.set]{(dats m 0 c).share w} (dats m 0 c).arrAt w 0 : sProp 𝕄)
      = ((c : Thread nD τ).loc (Pipeline.arrRef spec0 w) ↦{q} V m c (Pipeline.arrRef spec0 w)) := by
  rw [(arr_whole0 w).set_eq_univ, hq]; rfl

/-- The five buffers behind the six windows' arrays, each whole, make the pipeline's arrays at entry: the adjacency is
    split in two halves, one for each of its windows. -/
theorem hsplit (c : Dev nD) : (Pipeline.arrBufs (Ix := Unit) (Name := ℕ) (U := UR sig nD τ) (Lvl := ℕ) spec0 c (V m c) : sProp 𝕄)
    ⊢ (dats m 0 c).arrays ((dats m 0 c).arrAt · 0) := by
  classical
  unfold Pipeline.arrBufs Dat.arrays
  rw [bigSep_W0]
  rw [arr_eq m c 0 fullShare rfl, arr_eq m c 1 fullShare rfl, arr_eq m c 2 fullShare rfl, arr_eq m c 3 fullShare.left rfl,
    arr_eq m c 4 fullShare.right rfl, arr_eq m c 5 fullShare rfl]
  rw [show Finset.univ.image (Pipeline.arrRef spec0) = {main_arg0, main_arg2, main_v0, main_arg1, main_v1} from by decide]
  rw [BI.bigSep_insert (by decide), BI.bigSep_insert (by decide), BI.bigSep_insert (by decide), BI.bigSep_insert (by decide), BI.bigSep_singleton]
  show iprop((((c : Thread nD τ).loc main_arg0) ↦{fullShare} V m c main_arg0) ∗ (((c : Thread nD τ).loc main_arg2) ↦{fullShare} V m c main_arg2)
      ∗ (((c : Thread nD τ).loc main_v0) ↦{fullShare} V m c main_v0) ∗ (((c : Thread nD τ).loc main_arg1) ↦{fullShare} V m c main_arg1)
      ∗ (((c : Thread nD τ).loc main_v1) ↦{fullShare} V m c main_v1)) ⊢ _
  iintro ⟨H0, H2, Hv0, H1, Hv1⟩
  ihave H1' := (pointsTo_share (PosShare.mem_left_op_right fullShare)).1 $$ H1
  icases H1' with ⟨H1l, H1r⟩
  isplitl [H0]; · iexact H0
  isplitl [H2]; · iexact H2
  isplitl [Hv0]; · iexact Hv0
  isplitl [H1l]; · iexact H1l
  isplitl [H1r]; · iexact H1r
  iexact Hv1

/-- What the launch hands the region beside the windows is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [rest0_eq]
  exact Idealize.SL.BI.Entails.refl _

/-- After the last point the invariant gives the scratch buffers back, their contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c cfg0.N (Nat.le_refl _) from rfl,
    PhiS_pos m c _ _ (by rw [show cfg0.N = 25 from N_0]; decide), rest0_eq]
  iintro ⟨HS0, ⟨%g, -, HS1⟩, HS2⟩
  isplitl [HS0]; · iexists _; iexact HS0
  isplitl [HS1]; · iexists _; iexact HS1
  iexists _; iexact HS2

set_option backward.isDefEq.respectTransparency.types false in
/-- Every weakly fair execution of the program terminates, and every final state has each window's array at what the
    library computes from the proof data and every other unscoped buffer as the region found it. -/
theorem run_main : θ_run defs (onTc (τ := τ) (main (F := F))) (s₀ m ρ) (Pipeline.FramePost cfgs (dats m) 0 (V m)) :=
  Pipeline.θ_run_frame_shared_track cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := hin m) (hout := hout m)

/-- The argument arrays end as launched. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
   ((h c).1 3).trans (((dats m 0 c).arrAt_in 3 rfl _).trans ((A_eq m c 3).trans (V_main_arg1 m c))),
   ((h c).1 1).trans (((dats m 0 c).arrAt_in 1 rfl _).trans ((A_eq m c 1).trans (V_main_arg2 m c))),
   ((h c).2 main_arg3 (Pipeline.mem_restRefs_of main_arg3 rfl (by decide))).trans (V_main_arg3 m c)⟩

/-- The frame: the program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => kept m r h c) (run_main m ρ)

/-! ## The result array -/

/-- The output window's one block is the whole result array: its block index is (0, 0) at every point. -/
theorem index5 : ∀ t : Fin cfg0.N, ∀ a : Fin 2, win0_5.index t a = 0 :=
  (by decide +kernel : ∀ t : Fin grid0.N, ∀ a : Fin 2, win0_5.index t a = 0)

/-- What the last point writes back is the result block, read as the whole array. -/
theorem flushed5_eq (c : Dev nD) (t : Fin cfg0.N) :
    (dats m 0 c).flushed 5 t = ((cfg0.win 5).blk t).view.read (Elt F) (outv m c) := by
  show (cfg0.win 5).cut (grid0.coords t) ((dats m 0 c).after 5 t) = _
  rw [after0_5]
  funext j
  show outv m c j = outv m c (((cfg0.win 5).blk t).view.emb j)
  refine congrArg (outv m c) ?_
  funext a; apply Fin.ext
  match a with
  | ⟨0, _⟩ => show (j 0).val = win0_5.index t (0 : Fin 2) * 128 + 1 * (j 0).val; rw [index5 t 0]; omega
  | ⟨1, _⟩ => show (j 1).val = win0_5.index t (1 : Fin 2) * 128 + 1 * (j 1).val; rw [index5 t 1]; omega

theorem mem_blk5 (t : Fin cfg0.N) (i : S128x128.Idx) :
    i ∈ ((cfg0.win 5).blk t).view.set ↔ ∀ a : Fin 2, win0_5.index t a * S128x128.size a ≤ (i a).val ∧ (i a).val < win0_5.index t a * S128x128.size a + S128x128.size a := by
  show i ∈ ((View.whole main_v1).slice (win0_5.rect t)).set ↔ _
  rw [View.set_slice_whole, Rect.mem_set_unit]
  exact Iff.rfl

/-- The result array after the run is the block the last point stored. -/
theorem final5 (c : Dev nD) : (dats m 0 c).arrAt 5 cfg0.N = outv m c :=
  (dats m 0 c).arrAt_eq_of_cover 5 (outv m c) (fun t _ => flushed5_eq m c t) (fun i => by
    refine ⟨pt 24, (flush0_5 (pt 24)).mpr (by rw [pt_val 24 (by norm_num)]), ?_⟩
    rw [mem_blk5]
    intro a
    rw [index5 (pt 24) a]
    match a with
    | ⟨0, _⟩ => exact ⟨Nat.zero_le _, by show (i 0).val < 0 * 128 + 128; have hi : (i 0).val < 128 := (i 0).isLt; omega⟩
    | ⟨1, _⟩ => exact ⟨Nat.zero_le _, by show (i 1).val < 0 * 128 + 128; have hi : (i 1).val < 128 := (i 1).isLt; omega⟩)

/-- The run, read: the result array at the last point's block, the arguments unchanged. -/
theorem run_value : θ_run defs (onTc (τ := τ) (main (F := F))) ⟨m, fun _ => 0, ρ⟩ (fun r => ∀ c : Dev nD,
      r.2.mem ((c.tc : Thread nD τ).loc main_v1) = outv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 5).trans (final5 m c), kept m r h c⟩) (run_main m ρ)

end Cert.Kernel.Hand

end
-- ==== Proof.KI.Kit.lean ====
/-
  What the three control cases of the decoder kernel share.

  The kernel's grid has 25 points. Point `t` reads rows [400 t, 400 t + 200) and [400 t + 200, 400 t + 400) of the adjacency
  through two windows onto the ONE adjacency array, keeps `support = x · w`, the rows of `gcn` computed so far and the running
  column maximum in three scratch buffers, and writes the result only at the last point. This file names what every case is
  stated over: the arrays as the kernel region finds them (after the one host operation before it, a reshape of the bias),
  each window's block of its array, the two branch conditions in closed form over the grid, where the output window is idle,
  and the staging and scratch memrefs.
-/
import proofs.«151730_g15607911154264_cont_week2b_145_8_alg».proof.Proof.Gen.KernelIdeal.Launch
import proofs.«151730_g15607911154264_cont_week2b_145_8_alg».proof.Proof.Gen.KernelIdeal.Skeleton
import proofs.«151730_g15607911154264_cont_week2b_145_8_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the kernel region is entered: after the reshape of the bias. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the kernel region: the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only its own result: each argument array is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The branch conditions, decided over the grid -/

/-- The first branch (set `support`, reset the running maximum) is taken when the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second branch (the softmax and the final contraction) is taken when the grid coordinate is 24. -/
abbrev cond0_1 (i : grid0.Coords) : Prop := k0_cond2 i = 1#1
theorem hcond0_1 : ∀ t : Fin cfg0.N, cond0_1 (grid0.coords t) ↔ t.val = 24 :=
  (by decide +kernel : ∀ t : Fin grid0.N, cond0_1 (grid0.coords t) ↔ t.val = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Off the last point the body stores nothing into the output window, and the pipeline does not write it back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last point it stores the whole block. -/
theorem liveAt0_5 : ∀ t : Fin cfg0.N, cond0_1 (grid0.coords t) → cfg0.idle 5 (grid0.coords t) = false := by decide +kernel

/-! ## The staging and scratch memrefs -/

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S200x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S200x10000 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
/-- The three scratch buffers: `support`, the rows of `gcn`, the running column maximum. -/
abbrev scM0_0 : Memref sig .tc .vmem S10000x128 .f32 := Memref.whole cc0_scratch0
abbrev scM0_1 : Memref sig .tc .vmem S10000x128 .f32 := Memref.whole cc0_scratch1
abbrev scM0_2 : Memref sig .tc .vmem S1x128 .f32 := Memref.whole cc0_scratch2
abbrev hsc0_0 : (scM0_0).IsWhole := Memref.isWhole_whole _
abbrev hsc0_1 : (scM0_1).IsWhole := Memref.isWhole_whole _
abbrev hsc0_2 : (scM0_2).IsWhole := Memref.isWhole_whole _

/-- What the region hands the body beside the windows: the three scratch buffers, each at some contents. -/
theorem rest0_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d)) := by
  rw [scopedRest0_eq]; simp only [scM0_0, scM0_1, scM0_2, owns_whole]; try rfl

end Cert.KernelIdeal.Hand

end
-- ==== Proof.KI.Values.lean ====
/-
  The contents the decoder kernel keeps and produces, as functions of the arrays the region finds.

  `supp` is what the first point stores into the first scratch buffer (x · w); `g0 t` and `g1 t` are the two 200-row blocks of
  gcn point `t` stores into the second (rows 400 t ‥ 400 t + 199 and 400 t + 200 ‥ 400 t + 399); `mAfter n` is the running column
  maximum after point `n`; `gcnArr` is the whole gcn array assembled from the blocks; `outv` is the block the last point
  stores into the output window. `GcnRows k g` says that an array `g` agrees with `gcnArr` on its first 400 k rows: what is
  known of the second scratch buffer after `k` points, whatever it held before the first.
-/
import proofs.«151730_g15607911154264_cont_week2b_145_8_alg».proof.Proof.KI.Kit
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- Point number `n` of the grid (taken modulo the 25 points). -/
def pt (n : ℕ) : Fin cfg0.N := ⟨n % 25, lt_of_lt_of_eq (Nat.mod_lt n (by norm_num)) N_0.symm⟩
theorem pt_val (n : ℕ) (h : n < 25) : (pt n).val = n := Nat.mod_eq_of_lt h
theorem pt_eq (t : Fin cfg0.N) : pt t.val = t := Fin.ext (Nat.mod_eq_of_lt (lt_of_lt_of_eq t.isLt N_0))

/-- The five input windows' blocks at a point, at their literal types. -/
abbrev bX (c : Dev nD) (t : Fin cfg0.N) : Vec F S10000x128 .f32 := iblk m c 0 t
abbrev bW (c : Dev nD) (t : Fin cfg0.N) : Vec F S128x128 .f32 := iblk m c 1 t
abbrev bB (c : Dev nD) (t : Fin cfg0.N) : Vec F S1x128 .f32 := iblk m c 2 t
abbrev bA0 (c : Dev nD) (t : Fin cfg0.N) : Vec F S200x10000 .f32 := iblk m c 3 t
abbrev bA1 (c : Dev nD) (t : Fin cfg0.N) : Vec F S200x10000 .f32 := iblk m c 4 t

/-- support = x · w, as the first point computes it. -/
def supp (c : Dev nD) : Vec F S10000x128 .f32 := k0_pay3 (bX m c (pt 0)) (bW m c (pt 0))
/-- Point `t`'s two blocks of gcn. -/
def g0 (c : Dev nD) (t : Fin cfg0.N) : Vec F S200x128 .f32 := k0_pay7 (bA0 m c t) (supp m c) (bB m c t)
def g1 (c : Dev nD) (t : Fin cfg0.N) : Vec F S200x128 .f32 := k0_pay8 (bA1 m c t) (supp m c) (bB m c t)
/-- One point's update of the running column maximum. -/
def mStep (c : Dev nD) (t : Fin cfg0.N) (prev : Vec F S1x128 .f32) : Vec F S1x128 .f32 :=
  k0_pay1 (k0_pay6 (bA1 m c t) (supp m c) (bB m c t)) (k0_pay9 (bA0 m c t) (supp m c) (bB m c t)) prev
/-- The running column maximum after point `n`. -/
def mAfter (c : Dev nD) : ℕ → Vec F S1x128 .f32
  | 0 => mStep m c (pt 0) (k0_pay4 (F := F))
  | n + 1 => mStep m c (pt (n + 1)) (mAfter c n)
/-- gcn, assembled from the points' blocks: row r is row r mod 400 of point r / 400's first block, or row r mod 400 − 200 of its second. -/
def gcnArr (c : Dev nD) : Vec F S10000x128 .f32 := fun y =>
  if h : (y 0).val % 400 < 200 then g0 m c (pt ((y 0).val / 400)) (ix2 ⟨(y 0).val % 400, h⟩ ⟨(y 1).val, (y 1).isLt⟩)
  else g1 m c (pt ((y 0).val / 400)) (ix2 ⟨(y 0).val % 400 - 200, by have := Nat.mod_lt (y 0).val (show 0 < 400 by norm_num); omega⟩ ⟨(y 1).val, (y 1).isLt⟩)
/-- `g` agrees with gcn on its first 400 k rows. -/
def GcnRows (c : Dev nD) (k : ℕ) (g : Vec F S10000x128 .f32) : Prop := ∀ y : S10000x128.Idx, (y 0).val < 400 * k → g y = gcnArr m c y
/-- The block the last point stores into the output window. -/
def outv (c : Dev nD) : Vec F S128x128 .f32 := k0_pay2 (gcnArr m c) (mAfter m c 24) (bX m c (pt 24))

end Cert.KernelIdeal.Hand

end
-- ==== Proof.KI.Dats.lean ====
/-
  The proof data of the decoder kernel's pipeline.

  What each window's staging buffer holds after the body at each point (an input window its block; the output window, at the
  last point, the result block), and the invariant carried from point to point: before the first point the three scratch
  buffers hold anything; after point n the first holds `support`, the second agrees with gcn on its first 400 (n + 1) rows,
  the third holds the running column maximum after point n. The two adjacency windows read ONE array: each holds half of it.
-/
import proofs.«151730_g15607911154264_cont_week2b_145_8_alg».proof.Proof.KI.Values

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The region invariant before position `n`. -/
def PhiS (c : Dev nD) : (n : ℕ) → n ≤ cfg0.N → sProp 𝕄
  | 0, _ => iprop((∃ d, owns (c : Thread nD τ) scM0_0 fullShare d) ∗ (∃ d, owns (c : Thread nD τ) scM0_1 fullShare d) ∗ (∃ d, owns (c : Thread nD τ) scM0_2 fullShare d))
  | n + 1, _ => iprop(owns (c : Thread nD τ) scM0_0 fullShare (supp m c)
      ∗ (∃ g, ⌜GcnRows m c (n + 1) g⌝ ∗ owns (c : Thread nD τ) scM0_1 fullShare g)
      ∗ owns (c : Thread nD τ) scM0_2 fullShare (mAfter m c n))

theorem PhiS_zero (c : Dev nD) (n : ℕ) (h : n ≤ cfg0.N) (hz : n = 0) :
    PhiS m c n h = iprop((∃ d, owns (c : Thread nD τ) scM0_0 fullShare d) ∗ (∃ d, owns (c : Thread nD τ) scM0_1 fullShare d) ∗ (∃ d, owns (c : Thread nD τ) scM0_2 fullShare d)) := by
  subst hz; rfl

theorem PhiS_succ (c : Dev nD) (n : ℕ) (hn : n < cfg0.N) :
    PhiS m c (n + 1) hn = iprop(owns (c : Thread nD τ) scM0_0 fullShare (supp m c)
      ∗ (∃ g, ⌜GcnRows m c (n + 1) g⌝ ∗ owns (c : Thread nD τ) scM0_1 fullShare g)
      ∗ owns (c : Thread nD τ) scM0_2 fullShare (mAfter m c n)) := rfl

theorem PhiS_pos (c : Dev nD) (n : ℕ) (h : n ≤ cfg0.N) (hz : n ≠ 0) :
    PhiS m c n h = iprop(owns (c : Thread nD τ) scM0_0 fullShare (supp m c)
      ∗ (∃ g, ⌜GcnRows m c n g⌝ ∗ owns (c : Thread nD τ) scM0_1 fullShare g)
      ∗ owns (c : Thread nD τ) scM0_2 fullShare (mAfter m c (n - 1))) := by
  cases n with
  | zero => exact absurd rfl hz
  | succ n => rfl

/-- The running maximum after a later point is one update of the one after the point before; -/
theorem mAfter_pos (c : Dev nD) (t : Fin cfg0.N) (h0 : t.val ≠ 0) : mAfter m c t.val = mStep m c t (mAfter m c (t.val - 1)) := by
  obtain ⟨n, hn⟩ := t
  cases n with
  | zero => exact absurd rfl h0
  | succ n => show mStep m c (pt (n + 1)) (mAfter m c n) = mStep m c ⟨n + 1, hn⟩ (mAfter m c n); rw [pt_eq ⟨n + 1, hn⟩]
/-- after the first, one update of −∞. -/
theorem mAfter_zero (c : Dev nD) (t : Fin cfg0.N) (h0 : t.val = 0) : mAfter m c t.val = mStep m c t (k0_pay4 (F := F)) := by
  obtain ⟨n, hn⟩ := t
  cases n with
  | zero => show mStep m c (pt 0) _ = mStep m c ⟨0, hn⟩ _; rw [pt_eq ⟨0, hn⟩]
  | succ n => exact absurd h0 (Nat.succ_ne_zero n)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outv m c
  Φ t := PhiS m c t.val (Nat.le_of_lt_succ t.isLt)
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outv m c := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.KernelIdeal.Hand

end
-- ==== Proof.KI.RunA.lean ====
/-
  The kernel's body at the first point of the grid (the first branch taken, the second not).

  The three scratch buffers hold anything. The body computes `support = x · w` into the first, resets the running column
  maximum to −∞ in the third, then does what every point does: the two adjacency blocks times `support` plus the bias go
  to the second scratch at rows 0‥199 and 200‥399, and the running maximum becomes the two blocks' column maximum.
-/
import proofs.«151730_g15607911154264_cont_week2b_145_8_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces stored into the three scratch buffers at the first point, with the proof that the body runs there. -/
noncomputable def kernelRun0_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : cond0_0 i) (hc1 : ¬cond0_1 i)
    (x1 : Vec F S10000x128 .f32) (x2 : Vec F S128x128 .f32) (x3 : Vec F S1x128 .f32) (x4 x5 : Vec F S200x10000 .f32)
    (xs8 : Vec F S10000x128 .f32) :
    Σ' (LS7 : List (View.Piece (Elt F) S10000x128 .f32)) (LS8 : List (View.Piece (Elt F) S10000x128 .f32)), { LS9 : List (View.Piece (Elt F) S1x128 .f32) //
      ∀ (xi6 : Vec F S128x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi6
            ∗ (∃ d, owns (c : Thread nD τ) arg7 fullShare d) ∗ owns (c : Thread nD τ) arg8 fullShare xs8 ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi6
                ∗ (∃ f, arg7.view.loc (c : Thread nD τ) ↦[arg7.view.set]{fullShare} arg7.view.writes (Elt F) f LS7)
                ∗ (arg8.view.loc (c : Thread nD τ) ↦[arg8.view.set]{fullShare} arg8.view.writes (Elt F) (harg8.unread xs8) LS8)
                ∗ (∃ f, arg9.view.loc (c : Thread nD τ) ↦[arg9.view.set]{fullShare} arg9.view.writes (Elt F) f LS9)) -∗ K ⟨⟩))
          ⊢ wp frame (wpE (defs₀ (F := F)) Variants.none c none) E (cc0__decoder_kernel i arg1 harg1 arg2 harg2 arg3 harg3 arg4 harg4 arg5 harg5 arg6 harg6 arg7 harg7 arg8 harg8 arg9 harg9) K } := by
  refine ⟨?_, ?_, ?_, fun xi6 E K => ?run⟩
  case run =>
    simp only [cc0__decoder_kernel_eq_skeleton]; unfold cc0__decoder_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexact H8
    iexists _; iexact H9

end Cert.KernelIdeal.Hand

end
-- ==== Proof.KI.RunB.lean ====
/-
  The kernel's body at a middle point of the grid (neither branch taken).

  With `support` in the first scratch buffer, the rows of gcn computed so far in the second and the running column maximum in
  the third, the body multiplies its two adjacency blocks by `support`, adds the bias, stores the two 200-row results into the
  second scratch at the point's two row offsets, and replaces the running maximum by its maximum with the two blocks' column
  maxima. The pieces it stores are found by running the body symbolically.
-/
import proofs.«151730_g15607911154264_cont_week2b_145_8_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces stored into the gcn scratch and into the running maximum at a middle point, with the proof that the body
    runs there: inputs and `support` are handed back as found, the output window's buffer untouched. -/
noncomputable def kernelRun0_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : ¬cond0_0 i) (hc1 : ¬cond0_1 i)
    (x1 : Vec F S10000x128 .f32) (x2 : Vec F S128x128 .f32) (x3 : Vec F S1x128 .f32) (x4 x5 : Vec F S200x10000 .f32)
    (xs7 xs8 : Vec F S10000x128 .f32) (xs9 : Vec F S1x128 .f32) :
    Σ' (LS8 : List (View.Piece (Elt F) S10000x128 .f32)), { LS9 : List (View.Piece (Elt F) S1x128 .f32) //
      ∀ (xi6 : Vec F S128x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi6
            ∗ owns (c : Thread nD τ) arg7 fullShare xs7 ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi6
                ∗ owns (c : Thread nD τ) arg7 fullShare xs7
                ∗ (arg8.view.loc (c : Thread nD τ) ↦[arg8.view.set]{fullShare} arg8.view.writes (Elt F) (harg8.unread xs8) LS8)
                ∗ (arg9.view.loc (c : Thread nD τ) ↦[arg9.view.set]{fullShare} arg9.view.writes (Elt F) (harg9.unread xs9) LS9)) -∗ K ⟨⟩))
          ⊢ wp frame (wpE (defs₀ (F := F)) Variants.none c none) E (cc0__decoder_kernel i arg1 harg1 arg2 harg2 arg3 harg3 arg4 harg4 arg5 harg5 arg6 harg6 arg7 harg7 arg8 harg8 arg9 harg9) K } := by
  refine ⟨?_, ?_, fun xi6 E K => ?run⟩
  case run =>
    simp only [cc0__decoder_kernel_eq_skeleton]; unfold cc0__decoder_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    iexact H9

end Cert.KernelIdeal.Hand

end
-- ==== Proof.KI.RunC.lean ====
/-
  The kernel's body at the last point of the grid (the second branch taken, the first not).

  After the stores every point makes — the point's two 200-row blocks of gcn, the running column maximum — the body reads the
  whole gcn scratch and the maximum back, exponentiates gcn minus the maximum, sums the exponentials down each column,
  contracts them with the node features over the nodes, divides by the column sums and stores the 128 × 128 result into
  the output window's buffer.
-/
import proofs.«151730_g15607911154264_cont_week2b_145_8_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces stored into the output window's buffer, the gcn scratch and the running maximum at the last point, with the
    proof that the body runs there. -/
noncomputable def kernelRun0_C (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : ¬cond0_0 i) (hc1 : cond0_1 i)
    (x1 : Vec F S10000x128 .f32) (x2 : Vec F S128x128 .f32) (x3 : Vec F S1x128 .f32) (x4 x5 : Vec F S200x10000 .f32)
    (xs7 xs8 : Vec F S10000x128 .f32) (xs9 : Vec F S1x128 .f32) :
    Σ' (L6 : List (View.Piece (Elt F) S128x128 .f32)) (LS8 : List (View.Piece (Elt F) S10000x128 .f32)), { LS9 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
            ∗ owns (c : Thread nD τ) arg7 fullShare xs7 ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ owns (c : Thread nD τ) arg7 fullShare xs7
                ∗ (arg8.view.loc (c : Thread nD τ) ↦[arg8.view.set]{fullShare} arg8.view.writes (Elt F) (harg8.unread xs8) LS8)
                ∗ (arg9.view.loc (c : Thread nD τ) ↦[arg9.view.set]{fullShare} arg9.view.writes (Elt F) (harg9.unread xs9) LS9)) -∗ K ⟨⟩))
          ⊢ wp frame (wpE (defs₀ (F := F)) Variants.none c none) E (cc0__decoder_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__decoder_kernel_eq_skeleton]; unfold cc0__decoder_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]; · iexact H8
    iexact H9

end Cert.KernelIdeal.Hand

end
-- ==== Proof.KI.Pieces.lean ====
/-
  What the three cases store, piece by piece.

  The symbolic runs find the stored pieces; here each list is read off: every piece is a store, through a literal rectangle,
  of one of the body's named payloads applied to the contents the run was started from (a load of a whole buffer reads its
  contents; a load after a whole store reads what was stored).
-/
import proofs.«151730_g15607911154264_cont_week2b_145_8_alg».proof.Proof.KI.RunA
import proofs.«151730_g15607911154264_cont_week2b_145_8_alg».proof.Proof.KI.RunB
import proofs.«151730_g15607911154264_cont_week2b_145_8_alg».proof.Proof.KI.RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl

/-- After a store of a whole buffer, last, the buffer reads the stored value, whatever it held and whatever was stored before. -/
theorem read_writes_unit_zero {sig' : RefSig} {κ : Kind} {sp : Space} {S : Shape} {e : EltTy} {Val : EltTy → Type}
    (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-! ## The first point -/

theorem LS7_A_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : cond0_0 i) (hc1 : ¬cond0_1 i) (x1 : Vec F S10000x128 .f32) (x2 : Vec F S128x128 .f32) (x3 : Vec F S1x128 .f32) (x4 x5 : Vec F S200x10000 .f32) (xs8 : Vec F S10000x128 .f32) :
    (kernelRun0_A (F := F) c i arg1 harg1 arg2 harg2 arg3 harg3 arg4 harg4 arg5 harg5 arg6 harg6 arg7 harg7 arg8 harg8 arg9 harg9 hc0 hc1 x1 x2 x3 x4 x5 xs8).1
      = [⟨Rect.unit (s := S10000x128) ![0, 0] S10000x128.size Facts₀.inb_S10000x128_S10000x128_0_0, k0_pay3 x1 x2⟩] := by
  unfold kernelRun0_A
  dsimp only
  sl_unfold_run_names
  simp only [View.readAt_eq_ld, Memref.IsWhole.read_unread, View.ld_unit_zero (S := S200x10000) hz2, View.ld_unit_zero (S := S10000x128) hz2, View.ld_unit_zero (S := S1x128) hz2, View.ld_unit_zero (S := S128x128) hz2, View.readCov_unit_zero (S := S10000x128) _ hz2, View.readCov_unit_zero (S := S1x128) _ hz2]

theorem LS8_A_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : cond0_0 i) (hc1 : ¬cond0_1 i) (x1 : Vec F S10000x128 .f32) (x2 : Vec F S128x128 .f32) (x3 : Vec F S1x128 .f32) (x4 x5 : Vec F S200x10000 .f32) (xs8 : Vec F S10000x128 .f32) :
    (kernelRun0_A (F := F) c i arg1 harg1 arg2 harg2 arg3 harg3 arg4 harg4 arg5 harg5 arg6 harg6 arg7 harg7 arg8 harg8 arg9 harg9 hc0 hc1 x1 x2 x3 x4 x5 xs8).2.1
      = [⟨Rect.unit (s := S10000x128) (k0_off2 i) S200x128.size (Facts₀.k0_off2_inb i), k0_pay8 x5 (k0_pay3 x1 x2) x3⟩,
         ⟨Rect.unit (s := S10000x128) (k0_off1 i) S200x128.size (Facts₀.k0_off1_inb i), k0_pay7 x4 (k0_pay3 x1 x2) x3⟩] := by
  unfold kernelRun0_A
  dsimp only
  sl_unfold_run_names
  simp only [View.readAt_eq_ld, Memref.IsWhole.read_unread, View.ld_unit_zero (S := S200x10000) hz2, View.ld_unit_zero (S := S10000x128) hz2, View.ld_unit_zero (S := S1x128) hz2, View.ld_unit_zero (S := S128x128) hz2, View.readCov_unit_zero (S := S10000x128) _ hz2, View.readCov_unit_zero (S := S1x128) _ hz2]

theorem LS9_A_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : cond0_0 i) (hc1 : ¬cond0_1 i) (x1 : Vec F S10000x128 .f32) (x2 : Vec F S128x128 .f32) (x3 : Vec F S1x128 .f32) (x4 x5 : Vec F S200x10000 .f32) (xs8 : Vec F S10000x128 .f32) :
    (kernelRun0_A (F := F) c i arg1 harg1 arg2 harg2 arg3 harg3 arg4 harg4 arg5 harg5 arg6 harg6 arg7 harg7 arg8 harg8 arg9 harg9 hc0 hc1 x1 x2 x3 x4 x5 xs8).2.2.1
      = [⟨Rect.unit (s := S1x128) ![0, 0] S1x128.size Facts₀.inb_S1x128_S1x128_0_0, k0_pay1 (k0_pay6 x5 (k0_pay3 x1 x2) x3) (k0_pay9 x4 (k0_pay3 x1 x2) x3) (k0_pay4 (F := F))⟩,
         ⟨Rect.unit (s := S1x128) ![0, 0] S1x128.size Facts₀.inb_S1x128_S1x128_0_0, k0_pay4 (F := F)⟩] := by
  unfold kernelRun0_A
  dsimp only
  sl_unfold_run_names
  simp only [View.readAt_eq_ld, Memref.IsWhole.read_unread, View.ld_unit_zero (S := S200x10000) hz2, View.ld_unit_zero (S := S10000x128) hz2, View.ld_unit_zero (S := S1x128) hz2, View.ld_unit_zero (S := S128x128) hz2, View.readCov_unit_zero (S := S10000x128) _ hz2, View.readCov_unit_zero (S := S1x128) _ hz2]

/-! ## A middle point -/

theorem LS8_B_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : ¬cond0_0 i) (hc1 : ¬cond0_1 i) (x1 : Vec F S10000x128 .f32) (x2 : Vec F S128x128 .f32) (x3 : Vec F S1x128 .f32) (x4 x5 : Vec F S200x10000 .f32) (xs7 xs8 : Vec F S10000x128 .f32) (xs9 : Vec F S1x128 .f32) :
    (kernelRun0_B (F := F) c i arg1 harg1 arg2 harg2 arg3 harg3 arg4 harg4 arg5 harg5 arg6 harg6 arg7 harg7 arg8 harg8 arg9 harg9 hc0 hc1 x1 x2 x3 x4 x5 xs7 xs8 xs9).1
      = [⟨Rect.unit (s := S10000x128) (k0_off2 i) S200x128.size (Facts₀.k0_off2_inb i), k0_pay8 x5 xs7 x3⟩,
         ⟨Rect.unit (s := S10000x128) (k0_off1 i) S200x128.size (Facts₀.k0_off1_inb i), k0_pay7 x4 xs7 x3⟩] := by
  unfold kernelRun0_B
  dsimp only
  sl_unfold_run_names
  simp only [View.readAt_eq_ld, Memref.IsWhole.read_unread, View.ld_unit_zero (S := S200x10000) hz2, View.ld_unit_zero (S := S10000x128) hz2, View.ld_unit_zero (S := S1x128) hz2, View.ld_unit_zero (S := S128x128) hz2, View.readCov_unit_zero (S := S10000x128) _ hz2, View.readCov_unit_zero (S := S1x128) _ hz2]

theorem LS9_B_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : ¬cond0_0 i) (hc1 : ¬cond0_1 i) (x1 : Vec F S10000x128 .f32) (x2 : Vec F S128x128 .f32) (x3 : Vec F S1x128 .f32) (x4 x5 : Vec F S200x10000 .f32) (xs7 xs8 : Vec F S10000x128 .f32) (xs9 : Vec F S1x128 .f32) :
    (kernelRun0_B (F := F) c i arg1 harg1 arg2 harg2 arg3 harg3 arg4 harg4 arg5 harg5 arg6 harg6 arg7 harg7 arg8 harg8 arg9 harg9 hc0 hc1 x1 x2 x3 x4 x5 xs7 xs8 xs9).2.1
      = [⟨Rect.unit (s := S1x128) ![0, 0] S1x128.size Facts₀.inb_S1x128_S1x128_0_0, k0_pay1 (k0_pay6 x5 xs7 x3) (k0_pay9 x4 xs7 x3) xs9⟩] := by
  unfold kernelRun0_B
  dsimp only
  sl_unfold_run_names
  simp only [View.readAt_eq_ld, Memref.IsWhole.read_unread, View.ld_unit_zero (S := S200x10000) hz2, View.ld_unit_zero (S := S10000x128) hz2, View.ld_unit_zero (S := S1x128) hz2, View.ld_unit_zero (S := S128x128) hz2, View.readCov_unit_zero (S := S10000x128) _ hz2, View.readCov_unit_zero (S := S1x128) _ hz2]

/-! ## The last point -/

theorem L6_C_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : ¬cond0_0 i) (hc1 : cond0_1 i) (x1 : Vec F S10000x128 .f32) (x2 : Vec F S128x128 .f32) (x3 : Vec F S1x128 .f32) (x4 x5 : Vec F S200x10000 .f32) (xs7 xs8 : Vec F S10000x128 .f32) (xs9 : Vec F S1x128 .f32) :
    (kernelRun0_C (F := F) c i arg1 harg1 arg2 harg2 arg3 harg3 arg4 harg4 arg5 harg5 arg6 harg6 arg7 harg7 arg8 harg8 arg9 harg9 hc0 hc1 x1 x2 x3 x4 x5 xs7 xs8 xs9).1
      = [⟨Rect.unit (s := S128x128) ![0, 0] S128x128.size Facts₀.inb_S128x128_S128x128_0_0,
          k0_pay2 (arg8.view.read (Elt F) (arg8.view.writes (Elt F) (harg8.unread xs8)
              [⟨Rect.unit (s := S10000x128) (k0_off2 i) S200x128.size (Facts₀.k0_off2_inb i), k0_pay8 x5 xs7 x3⟩,
               ⟨Rect.unit (s := S10000x128) (k0_off1 i) S200x128.size (Facts₀.k0_off1_inb i), k0_pay7 x4 xs7 x3⟩]))
            (k0_pay1 (k0_pay6 x5 xs7 x3) (k0_pay9 x4 xs7 x3) xs9) x1⟩] := by
  unfold kernelRun0_C
  dsimp only
  sl_unfold_run_names
  simp only [View.readAt_eq_ld, Memref.IsWhole.read_unread, View.ld_unit_zero (S := S200x10000) hz2, View.ld_unit_zero (S := S10000x128) hz2, View.ld_unit_zero (S := S1x128) hz2, View.ld_unit_zero (S := S128x128) hz2, View.readCov_unit_zero (S := S10000x128) _ hz2, View.readCov_unit_zero (S := S1x128) _ hz2]

theorem LS8_C_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : ¬cond0_0 i) (hc1 : cond0_1 i) (x1 : Vec F S10000x128 .f32) (x2 : Vec F S128x128 .f32) (x3 : Vec F S1x128 .f32) (x4 x5 : Vec F S200x10000 .f32) (xs7 xs8 : Vec F S10000x128 .f32) (xs9 : Vec F S1x128 .f32) :
    (kernelRun0_C (F := F) c i arg1 harg1 arg2 harg2 arg3 harg3 arg4 harg4 arg5 harg5 arg6 harg6 arg7 harg7 arg8 harg8 arg9 harg9 hc0 hc1 x1 x2 x3 x4 x5 xs7 xs8 xs9).2.1
      = [⟨Rect.unit (s := S10000x128) (k0_off2 i) S200x128.size (Facts₀.k0_off2_inb i), k0_pay8 x5 xs7 x3⟩,
         ⟨Rect.unit (s := S10000x128) (k0_off1 i) S200x128.size (Facts₀.k0_off1_inb i), k0_pay7 x4 xs7 x3⟩] := by
  unfold kernelRun0_C
  dsimp only
  sl_unfold_run_names
  simp only [View.readAt_eq_ld, Memref.IsWhole.read_unread, View.ld_unit_zero (S := S200x10000) hz2, View.ld_unit_zero (S := S10000x128) hz2, View.ld_unit_zero (S := S1x128) hz2, View.ld_unit_zero (S := S128x128) hz2, View.readCov_unit_zero (S := S10000x128) _ hz2, View.readCov_unit_zero (S := S1x128) _ hz2]

theorem LS9_C_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (hc0 : ¬cond0_0 i) (hc1 : cond0_1 i) (x1 : Vec F S10000x128 .f32) (x2 : Vec F S128x128 .f32) (x3 : Vec F S1x128 .f32) (x4 x5 : Vec F S200x10000 .f32) (xs7 xs8 : Vec F S10000x128 .f32) (xs9 : Vec F S1x128 .f32) :
    (kernelRun0_C (F := F) c i arg1 harg1 arg2 harg2 arg3 harg3 arg4 harg4 arg5 harg5 arg6 harg6 arg7 harg7 arg8 harg8 arg9 harg9 hc0 hc1 x1 x2 x3 x4 x5 xs7 xs8 xs9).2.2.1
      = [⟨Rect.unit (s := S1x128) ![0, 0] S1x128.size Facts₀.inb_S1x128_S1x128_0_0, k0_pay1 (k0_pay6 x5 xs7 x3) (k0_pay9 x4 xs7 x3) xs9⟩] := by
  unfold kernelRun0_C
  dsimp only
  sl_unfold_run_names
  simp only [View.readAt_eq_ld, Memref.IsWhole.read_unread, View.ld_unit_zero (S := S200x10000) hz2, View.ld_unit_zero (S := S10000x128) hz2, View.ld_unit_zero (S := S1x128) hz2, View.ld_unit_zero (S := S128x128) hz2, View.readCov_unit_zero (S := S10000x128) _ hz2, View.readCov_unit_zero (S := S1x128) _ hz2]

end Cert.KernelIdeal.Hand

end
-- ==== Proof.KI.GcnStep.lean ====
/-
  The rows of the second scratch buffer, one point at a time.

  Point `t` stores its two 200-row blocks at rows 400 t and 400 t + 200 of the 10000 × 128 buffer. The offsets are words the
  kernel computes; over the 25 points they are decided to be these closed forms. Storing the two blocks over contents that
  agree with gcn on the first 400 t rows leaves contents that agree with it on the first 400 (t + 1) rows, and after the
  25 points every row is gcn's.
-/
import proofs.«151730_g15607911154264_cont_week2b_145_8_alg».proof.Proof.KI.Values
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- Point t's first block starts at row 400 t, its second at row 400 t + 200 (decided over the 25 points). -/
theorem k0_off1_eq : ∀ t : Fin cfg0.N, k0_off1 (grid0.coords t) = ![400 * t.val, 0] :=
  (by decide +kernel : ∀ t : Fin grid0.N, k0_off1 (grid0.coords t) = ![400 * t.val, 0])
theorem k0_off2_eq : ∀ t : Fin cfg0.N, k0_off2 (grid0.coords t) = ![400 * t.val + 200, 0] :=
  (by decide +kernel : ∀ t : Fin grid0.N, k0_off2 (grid0.coords t) = ![400 * t.val + 200, 0])

/-- Storing point t's two blocks over contents that agree with gcn on the first 400 t rows leaves contents that agree with it on the first 400 (t + 1) rows. -/
theorem gcnRows_step (c : Dev nD) (t : Fin cfg0.N) (v : View sig .tc .vmem S10000x128 .f32) (f : v.ty.Contents (Elt F))
    (hg : GcnRows m c t.val (v.read (Elt F) f)) :
    GcnRows m c (t.val + 1) (v.read (Elt F) (v.writes (Elt F) f
      [⟨Rect.unit (s := S10000x128) (k0_off2 (grid0.coords t)) S200x128.size (Facts₀.k0_off2_inb (grid0.coords t)), g1 m c t⟩,
       ⟨Rect.unit (s := S10000x128) (k0_off1 (grid0.coords t)) S200x128.size (Facts₀.k0_off1_inb (grid0.coords t)), g0 m c t⟩])) := by
  intro y hy
  have hN : t.val < 25 := lt_of_lt_of_eq t.isLt N_0
  have hy0 : (y 0).val < 10000 := (y 0).isLt
  have hy1 : (y 1).val < 128 := (y 1).isLt
  by_cases h2 : 400 * t.val + 200 ≤ (y 0).val
  · -- the row lies in the second block: the newest piece
    have hlt : (y 0).val - (400 * t.val + 200) < 200 := by omega
    have hmod : ¬ (y 0).val % 400 < 200 := by omega
    have hdiv : (y 0).val / 400 = t.val := by omega
    have e : pt ((y 0).val / 400) = t := by rw [hdiv]; exact pt_eq t
    refine (View.read_writes_cons_rows_of_mem v f (Facts₀.k0_off2_inb (grid0.coords t)) (g1 m c t) _ y
      (ix2 (n0 := 200) (n1 := 128) ⟨(y 0).val - (400 * t.val + 200), hlt⟩ ⟨(y 1).val, hy1⟩) (k0_off2_eq t)
      (by show (y 0).val = 400 * t.val + 200 + ((y 0).val - (400 * t.val + 200)); omega) rfl).trans ?_
    unfold gcnArr
    rw [dif_neg hmod, e]
    exact congrArg (g1 m c t) (funext fun a => Fin.ext (by
      match a with
      | ⟨0, _⟩ => show (y 0).val - (400 * t.val + 200) = (y 0).val % 400 - 200; omega
      | ⟨1, _⟩ => rfl))
  · by_cases h1 : 400 * t.val ≤ (y 0).val
    · -- the row lies in the first block: not the newest piece, the one before it
      have hlt : (y 0).val - 400 * t.val < 200 := by omega
      have hmod : (y 0).val % 400 < 200 := by omega
      have hdiv : (y 0).val / 400 = t.val := by omega
      have e : pt ((y 0).val / 400) = t := by rw [hdiv]; exact pt_eq t
      refine (View.read_writes_cons_rows_of_not_mem (W := 200) v f (Facts₀.k0_off2_inb (grid0.coords t)) (g1 m c t) _ y
        (k0_off2_eq t) rfl (Or.inl (by omega))).trans ?_
      refine (View.read_writes_cons_rows_of_mem v f (Facts₀.k0_off1_inb (grid0.coords t)) (g0 m c t) _ y
        (ix2 (n0 := 200) (n1 := 128) ⟨(y 0).val - 400 * t.val, hlt⟩ ⟨(y 1).val, hy1⟩) (k0_off1_eq t)
        (by show (y 0).val = 400 * t.val + ((y 0).val - 400 * t.val); omega) rfl).trans ?_
      unfold gcnArr
      rw [dif_pos hmod, e]
      exact congrArg (g0 m c t) (funext fun a => Fin.ext (by
        match a with
        | ⟨0, _⟩ => show (y 0).val - 400 * t.val = (y 0).val % 400; omega
        | ⟨1, _⟩ => rfl))
    · -- the row lies below both blocks: what was there before
      refine (View.read_writes_cons_rows_of_not_mem (W := 200) v f (Facts₀.k0_off2_inb (grid0.coords t)) (g1 m c t) _ y
        (k0_off2_eq t) rfl (Or.inl (by omega))).trans ?_
      refine (View.read_writes_cons_rows_of_not_mem (W := 200) v f (Facts₀.k0_off1_inb (grid0.coords t)) (g0 m c t) _ y
        (k0_off1_eq t) rfl (Or.inl (by omega))).trans ?_
      rw [View.writes_nil]
      exact hg y (by omega)

/-- After all 25 points every row is gcn's. -/
theorem gcnRows_all (c : Dev nD) (g : Vec F S10000x128 .f32) (h : GcnRows m c 25 g) : g = gcnArr m c :=
  funext fun y => h y (by have hy0 : (y 0).val < 10000 := (y 0).isLt; omega)

end Cert.KernelIdeal.Hand

end
-- ==== Proof.KI.Body.lean ====
/-
  The body obligation of the decoder kernel's pipeline: at every grid point the body runs from the invariant and the
  windows' blocks to the invariant at the next point.

  By cases on the point. At the first point the scratch buffers hold anything and the run fills them; at a middle point it
  extends the rows of gcn by the point's 400 and updates the running maximum; at the last point it also reads the now complete
  gcn back and stores the result block. The output window is idle off the last point: its buffer is handed back as found.
-/
import proofs.«151730_g15607911154264_cont_week2b_145_8_alg».proof.Proof.KI.Dats
import proofs.«151730_g15607911154264_cont_week2b_145_8_alg».proof.Proof.KI.Pieces
import proofs.«151730_g15607911154264_cont_week2b_145_8_alg».proof.Proof.KI.GcnStep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hN : t.val < 25 := lt_of_lt_of_eq t.isLt N_0
  by_cases h0 : t.val = 0
  · -- the first point
    have hc0 : cond0_0 (grid0.coords t) := (hcond0_0 t).mpr h0
    have hc1 : ¬cond0_1 (grid0.coords t) := fun h => by have := (hcond0_1 t).mp h; omega
    have ht : t = pt 0 := by rw [← pt_eq t, h0]
    have hs : k0_pay3 (bX m c t) (bW m c t) = supp m c := by rw [ht]; rfl
    rw [Dat.leavesExact_idle (dats m 0 c) 5 t (idleAt0_5 t hc1) (noFlush0_5 t hc1)]
    rw [PhiS_castSucc m c t, PhiS_zero m c _ _ h0, mAfter_zero m c t h0]
    iintro ⟨⟨⟨%d7, HS0⟩, ⟨%g, HS1⟩, HS2⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ _ _ hc0 hc1 (bX m c t) (bW m c t) (bB m c t) (bA0 m c t) (bA1 m c t) g).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    isplitl [HS1]; · iexact HS1
    isplitl [HS2]; · iexact HS2
    iintro ⟨H0, H1, H2, H3, H4, H5, ⟨%e7, HS0⟩, HS1, ⟨%e9, HS2⟩⟩
    isplitl [HS0 HS1 HS2]
    · isplitl [HS0]
      · unfold owns; iexists _; isplitr
        swap; · iexact HS0
        ipureintro
        rw [LS7_A_eq, read_writes_unit_zero _ _ hz2, hs]
      isplitl [HS1]
      · iexists _; isplitr
        swap
        · unfold owns; iexists _; isplitr
          swap; · iexact HS1
          ipureintro; rfl
        ipureintro
        rw [LS8_A_eq, hs]
        exact gcnRows_step m c t scM0_1.view (hsc0_1.unread g) (fun y hy => absurd hy (by rw [h0]; omega))
      · unfold owns; iexists _; isplitr
        swap; · iexact HS2
        ipureintro
        rw [LS9_A_eq, read_writes_unit_zero _ _ hz2, hs]; rfl
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 24
    · -- the last point
      have hc0 : ¬cond0_0 (grid0.coords t) := fun h => h0 ((hcond0_0 t).mp h)
      have hc1 : cond0_1 (grid0.coords t) := (hcond0_1 t).mpr h1
      have ht : t = pt 24 := by rw [← pt_eq t, h1]
      rw [show (dats m 0 c).leavesExact 5 t = owns (c : Thread nD τ) (ms0_5 t) fullShare ((dats m 0 c).after 5 t) from by
        unfold Dat.leavesExact; rw [liveAt0_5 t hc1], after0_5]
      rw [PhiS_castSucc m c t, PhiS_pos m c _ _ h0, mAfter_pos m c t h0]
      iintro ⟨⟨HS0, ⟨%g, %hg, HS1⟩, HS2⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ _ _ hc0 hc1 (bX m c t) (bW m c t) (bB m c t) (bA0 m c t) (bA1 m c t) (supp m c) g (mAfter m c (t.val - 1))).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e6, H5⟩, HS0, HS1, HS2⟩
      have hstep := gcnRows_step m c t scM0_1.view (hsc0_1.unread g) (by rw [hsc0_1.read_unread]; exact hg)
      isplitl [HS0 HS1 HS2]
      · isplitl [HS0]; · iexact HS0
        isplitl [HS1]
        · iexists _; isplitr
          swap
          · unfold owns; iexists _; isplitr
            swap; · iexact HS1
            ipureintro; rfl
          ipureintro
          rw [LS8_C_eq]
          exact hstep
        · unfold owns; iexists _; isplitr
          swap; · iexact HS2
          ipureintro
          rw [LS9_C_eq, read_writes_unit_zero _ _ hz2]; rfl
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro
      rw [L6_C_eq, read_writes_unit_zero _ _ hz2]
      have hstep' := hstep
      rw [h1] at hstep'
      have hG := gcnRows_all m c _ hstep'
      refine (congrArg (fun G => k0_pay2 G (k0_pay1 (k0_pay6 (bA1 m c t) (supp m c) (bB m c t)) (k0_pay9 (bA0 m c t) (supp m c) (bB m c t)) (mAfter m c (t.val - 1))) (bX m c t)) hG).trans ?_
      unfold outv
      rw [show mAfter m c 24 = mStep m c t (mAfter m c (t.val - 1)) from by rw [← mAfter_pos m c t h0, h1]]
      rw [← ht]; rfl
    · -- a middle point
      have hc0 : ¬cond0_0 (grid0.coords t) := fun h => h0 ((hcond0_0 t).mp h)
      have hc1 : ¬cond0_1 (grid0.coords t) := fun h => h1 ((hcond0_1 t).mp h)
      rw [Dat.leavesExact_idle (dats m 0 c) 5 t (idleAt0_5 t hc1) (noFlush0_5 t hc1)]
      rw [PhiS_castSucc m c t, PhiS_pos m c _ _ h0, mAfter_pos m c t h0]
      iintro ⟨⟨HS0, ⟨%g, %hg, HS1⟩, HS2⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ hc0 hc1 (bX m c t) (bW m c t) (bB m c t) (bA0 m c t) (bA1 m c t) (supp m c) g (mAfter m c (t.val - 1))).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2]
      · isplitl [HS0]; · iexact HS0
        isplitl [HS1]
        · iexists _; isplitr
          swap
          · unfold owns; iexists _; isplitr
            swap; · iexact HS1
            ipureintro; rfl
          ipureintro
          rw [LS8_B_eq]
          exact gcnRows_step m c t scM0_1.view (hsc0_1.unread g) (by rw [hsc0_1.read_unread]; exact hg)
        · unfold owns; iexists _; isplitr
          swap; · iexact HS2
          ipureintro
          rw [LS9_B_eq, read_writes_unit_zero _ _ hz2]; rfl
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The launch of the decoder kernel's program, its frame, and what its result array ends holding.

  The program is a reshape of the bias, then the kernel region. The two adjacency windows read ONE array: the launch hands
  the region that array whole, and each window takes half of it. From the library's run of the region: every argument array
  ends as launched, and the result array ends holding the block the last grid point stored.
-/
import proofs.«151730_g15607911154264_cont_week2b_145_8_alg».proof.Proof.KI.Body
import proofs.«151730_g15607911154264_cont_week2b_145_8_alg».proof.Proof.LibSharedTrack

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One window's array as the pipeline holds it at entry: the buffer behind it, whole, at the window's share. -/
theorem arr_eq (c : Dev nD) (w : Fin cfg0.W) (q : PosShare TreeShare) (hq : (dats m 0 c).share w = q) :
    ((cfg0.win w).arr.view.loc (c : Thread nD τ) ↦[(cfg0.win w).arr.view.set]{(dats m 0 c).share w} (dats m 0 c).arrAt w 0 : sProp 𝕄)
      = ((c : Thread nD τ).loc (Pipeline.arrRef spec0 w) ↦{q} V m c (Pipeline.arrRef spec0 w)) := by
  rw [(arr_whole0 w).set_eq_univ, hq]; rfl

/-- The five buffers behind the six windows' arrays, each whole, make the pipeline's arrays at entry: the adjacency is
    split in two halves, one for each of its windows. -/
theorem hsplit (c : Dev nD) : (Pipeline.arrBufs (Ix := Unit) (Name := ℕ) (U := UR sig nD τ) (Lvl := ℕ) spec0 c (V m c) : sProp 𝕄)
    ⊢ (dats m 0 c).arrays ((dats m 0 c).arrAt · 0) := by
  classical
  unfold Pipeline.arrBufs Dat.arrays
  rw [bigSep_W0]
  rw [arr_eq m c 0 fullShare rfl, arr_eq m c 1 fullShare rfl, arr_eq m c 2 fullShare rfl, arr_eq m c 3 fullShare.left rfl,
    arr_eq m c 4 fullShare.right rfl, arr_eq m c 5 fullShare rfl]
  rw [show Finset.univ.image (Pipeline.arrRef spec0) = {main_arg0, main_arg2, main_v0, main_arg1, main_v1} from by decide]
  rw [BI.bigSep_insert (by decide), BI.bigSep_insert (by decide), BI.bigSep_insert (by decide), BI.bigSep_insert (by decide), BI.bigSep_singleton]
  show iprop((((c : Thread nD τ).loc main_arg0) ↦{fullShare} V m c main_arg0) ∗ (((c : Thread nD τ).loc main_arg2) ↦{fullShare} V m c main_arg2)
      ∗ (((c : Thread nD τ).loc main_v0) ↦{fullShare} V m c main_v0) ∗ (((c : Thread nD τ).loc main_arg1) ↦{fullShare} V m c main_arg1)
      ∗ (((c : Thread nD τ).loc main_v1) ↦{fullShare} V m c main_v1)) ⊢ _
  iintro ⟨H0, H2, Hv0, H1, Hv1⟩
  ihave H1' := (pointsTo_share (PosShare.mem_left_op_right fullShare)).1 $$ H1
  icases H1' with ⟨H1l, H1r⟩
  isplitl [H0]; · iexact H0
  isplitl [H2]; · iexact H2
  isplitl [Hv0]; · iexact Hv0
  isplitl [H1l]; · iexact H1l
  isplitl [H1r]; · iexact H1r
  iexact Hv1

/-- What the launch hands the region beside the windows is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [rest0_eq]
  exact Idealize.SL.BI.Entails.refl _

/-- After the last point the invariant gives the scratch buffers back, their contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c cfg0.N (Nat.le_refl _) from rfl,
    PhiS_pos m c _ _ (by rw [show cfg0.N = 25 from N_0]; decide), rest0_eq]
  iintro ⟨HS0, ⟨%g, -, HS1⟩, HS2⟩
  isplitl [HS0]; · iexists _; iexact HS0
  isplitl [HS1]; · iexists _; iexact HS1
  iexists _; iexact HS2

set_option backward.isDefEq.respectTransparency.types false in
/-- Every weakly fair execution of the program terminates, and every final state has each window's array at what the
    library computes from the proof data and every other unscoped buffer as the region found it. -/
theorem run_main : θ_run defs (onTc (τ := τ) (main (F := F))) (s₀ m ρ) (Pipeline.FramePost cfgs (dats m) 0 (V m)) :=
  Pipeline.θ_run_frame_shared_track cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := hin m) (hout := hout m)

/-- The argument arrays end as launched. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
   ((h c).1 3).trans (((dats m 0 c).arrAt_in 3 rfl _).trans ((A_eq m c 3).trans (V_main_arg1 m c))),
   ((h c).1 1).trans (((dats m 0 c).arrAt_in 1 rfl _).trans ((A_eq m c 1).trans (V_main_arg2 m c))),
   ((h c).2 main_arg3 (Pipeline.mem_restRefs_of main_arg3 rfl (by decide))).trans (V_main_arg3 m c)⟩

/-- The frame: the program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => kept m r h c) (run_main m ρ)

/-! ## The result array -/

/-- The output window's one block is the whole result array: its block index is (0, 0) at every point. -/
theorem index5 : ∀ t : Fin cfg0.N, ∀ a : Fin 2, win0_5.index t a = 0 :=
  (by decide +kernel : ∀ t : Fin grid0.N, ∀ a : Fin 2, win0_5.index t a = 0)

/-- What the last point writes back is the result block, read as the whole array. -/
theorem flushed5_eq (c : Dev nD) (t : Fin cfg0.N) :
    (dats m 0 c).flushed 5 t = ((cfg0.win 5).blk t).view.read (Elt F) (outv m c) := by
  show (cfg0.win 5).cut (grid0.coords t) ((dats m 0 c).after 5 t) = _
  rw [after0_5]
  funext j
  show outv m c j = outv m c (((cfg0.win 5).blk t).view.emb j)
  refine congrArg (outv m c) ?_
  funext a; apply Fin.ext
  match a with
  | ⟨0, _⟩ => show (j 0).val = win0_5.index t (0 : Fin 2) * 128 + 1 * (j 0).val; rw [index5 t 0]; omega
  | ⟨1, _⟩ => show (j 1).val = win0_5.index t (1 : Fin 2) * 128 + 1 * (j 1).val; rw [index5 t 1]; omega

theorem mem_blk5 (t : Fin cfg0.N) (i : S128x128.Idx) :
    i ∈ ((cfg0.win 5).blk t).view.set ↔ ∀ a : Fin 2, win0_5.index t a * S128x128.size a ≤ (i a).val ∧ (i a).val < win0_5.index t a * S128x128.size a + S128x128.size a := by
  show i ∈ ((View.whole main_v1).slice (win0_5.rect t)).set ↔ _
  rw [View.set_slice_whole, Rect.mem_set_unit]
  exact Iff.rfl

/-- The result array after the run is the block the last point stored. -/
theorem final5 (c : Dev nD) : (dats m 0 c).arrAt 5 cfg0.N = outv m c :=
  (dats m 0 c).arrAt_eq_of_cover 5 (outv m c) (fun t _ => flushed5_eq m c t) (fun i => by
    refine ⟨pt 24, (flush0_5 (pt 24)).mpr (by rw [pt_val 24 (by norm_num)]), ?_⟩
    rw [mem_blk5]
    intro a
    rw [index5 (pt 24) a]
    match a with
    | ⟨0, _⟩ => exact ⟨Nat.zero_le _, by show (i 0).val < 0 * 128 + 128; have hi : (i 0).val < 128 := (i 0).isLt; omega⟩
    | ⟨1, _⟩ => exact ⟨Nat.zero_le _, by show (i 1).val < 0 * 128 + 128; have hi : (i 1).val < 128 := (i 1).isLt; omega⟩)

/-- The run, read: the result array at the last point's block, the arguments unchanged. -/
theorem run_value : θ_run defs (onTc (τ := τ) (main (F := F))) ⟨m, fun _ => 0, ρ⟩ (fun r => ∀ c : Dev nD,
      r.2.mem ((c.tc : Thread nD τ).loc main_v1) = outv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 5).trans (final5 m c), kept m r h c⟩) (run_main m ρ)

end Cert.KernelIdeal.Hand

end
-- ==== Proof.KI.Blocks.lean ====
/-
  Each input window's block, as a function of the array the kernel region finds.

  The features, the weight and the bias row are read whole at every point: their blocks are the arrays themselves. The two
  adjacency windows read 200-row blocks of the one adjacency array: at point t the first holds rows 400 t ‥ 400 t + 199 and
  the second rows 400 t + 200 ‥ 400 t + 399. The bias row the region finds is the reshape [128] → [1, 128] of the bias
  argument, so its entry (0, j) is the argument's entry j.
-/
import proofs.«151730_g15607911154264_cont_week2b_145_8_alg».proof.Proof.KI.Values
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The index maps, decided over the grid -/

/-- The features', the weight's and the bias row's windows sit at block (0, 0) at every point. -/
theorem index_whole : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The adjacency windows sit at block rows 2 t and 2 t + 1, block column 0. -/
theorem index_adj : ∀ t : Fin cfg0.N,
    win0_3.index t (0 : Fin 2) = 2 * t.val ∧ win0_3.index t (1 : Fin 2) = 0
    ∧ win0_4.index t (0 : Fin 2) = 2 * t.val + 1 ∧ win0_4.index t (1 : Fin 2) = 0 :=
  (by decide +kernel : ∀ t : Fin grid0.N, _)

/-! ## The windows read whole -/

theorem bX_apply (c : Dev nD) (t : Fin cfg0.N) (i : Fin 10000) (l : Fin 128) : bX m c t (ix2 i l) = (V m c main_arg0 : Vec F S10000x128 .f32) (ix2 i l) := by
  obtain ⟨e0, e1, -⟩ := index_whole t
  unfold bX iblk
  rw [View.read_apply]
  show V m c main_arg0 (((cfg0.win 0).blk t).view.emb (ix2 i l)) = V m c main_arg0 (ix2 i l)
  congr 1
  funext a
  apply Fin.ext
  match a with
  | ⟨0, _⟩ => show win0_0.index t (0 : Fin 2) * 10000 + 1 * i.val = i.val; rw [e0]; omega
  | ⟨1, _⟩ => show win0_0.index t (1 : Fin 2) * 128 + 1 * l.val = l.val; rw [e1]; omega

theorem bW_apply (c : Dev nD) (t : Fin cfg0.N) (l : Fin 128) (j : Fin 128) : bW m c t (ix2 l j) = (V m c main_arg2 : Vec F S128x128 .f32) (ix2 l j) := by
  obtain ⟨-, -, e0, e1, -⟩ := index_whole t
  unfold bW iblk
  rw [View.read_apply]
  show V m c main_arg2 (((cfg0.win 1).blk t).view.emb (ix2 l j)) = V m c main_arg2 (ix2 l j)
  congr 1
  funext a
  apply Fin.ext
  match a with
  | ⟨0, _⟩ => show win0_1.index t (0 : Fin 2) * 128 + 1 * l.val = l.val; rw [e0]; omega
  | ⟨1, _⟩ => show win0_1.index t (1 : Fin 2) * 128 + 1 * j.val = j.val; rw [e1]; omega

/-! ## The adjacency windows: 200-row blocks of the one array -/

theorem bA0_apply (c : Dev nD) (t : Fin cfg0.N) (r : Fin 200) (k : Fin 10000) :
    bA0 m c t (ix2 r k) = (V m c main_arg1 : Vec F S10000x10000 .f32) (ix2 ⟨400 * t.val + r.val, by have := lt_of_lt_of_eq t.isLt N_0; omega⟩ k) := by
  obtain ⟨e0, e1, -⟩ := index_adj t
  unfold bA0 iblk
  rw [View.read_apply]
  show V m c main_arg1 (((cfg0.win 3).blk t).view.emb (ix2 r k)) = V m c main_arg1 _
  congr 1
  funext a
  apply Fin.ext
  match a with
  | ⟨0, _⟩ => show win0_3.index t (0 : Fin 2) * 200 + 1 * r.val = 400 * t.val + r.val; rw [e0]; omega
  | ⟨1, _⟩ => show win0_3.index t (1 : Fin 2) * 10000 + 1 * k.val = k.val; rw [e1]; omega

theorem bA1_apply (c : Dev nD) (t : Fin cfg0.N) (r : Fin 200) (k : Fin 10000) :
    bA1 m c t (ix2 r k) = (V m c main_arg1 : Vec F S10000x10000 .f32) (ix2 ⟨400 * t.val + 200 + r.val, by have := lt_of_lt_of_eq t.isLt N_0; omega⟩ k) := by
  obtain ⟨-, -, e0, e1⟩ := index_adj t
  unfold bA1 iblk
  rw [View.read_apply]
  show V m c main_arg1 (((cfg0.win 4).blk t).view.emb (ix2 r k)) = V m c main_arg1 _
  congr 1
  funext a
  apply Fin.ext
  match a with
  | ⟨0, _⟩ => show win0_4.index t (0 : Fin 2) * 200 + 1 * r.val = 400 * t.val + 200 + r.val; rw [e0]; omega
  | ⟨1, _⟩ => show win0_4.index t (1 : Fin 2) * 10000 + 1 * k.val = k.val; rw [e1]; omega

/-! ## The bias row -/

/-- The bias row the region finds is the bias argument with a leading unit axis. -/
theorem V_main_v0 (c : Dev nD) :
    (V m c main_v0 : Vec F S1x128 .f32) = shapeCast S1x128 (m ((c : Thread nD τ).loc main_arg3) : Vec F S128 .f32) Facts₀.shapeCasts_S128_S1x128 := by
  dsimp only [V, hostOps0]
  after_results
  rfl

theorem bB_apply (c : Dev nD) (t : Fin cfg0.N) (j : Fin 128) : bB m c t (ix2 (0 : Fin 1) j) = (m ((c : Thread nD τ).loc main_arg3) : Vec F S128 .f32) (ix1 j) := by
  obtain ⟨-, -, -, -, e0, e1⟩ := index_whole t
  have hblk : bB m c t (ix2 (0 : Fin 1) j) = (V m c main_v0 : Vec F S1x128 .f32) (ix2 (0 : Fin 1) j) := by
    unfold bB iblk
    rw [View.read_apply]
    show V m c main_v0 (((cfg0.win 2).blk t).view.emb (ix2 (0 : Fin 1) j)) = V m c main_v0 (ix2 (0 : Fin 1) j)
    congr 1
    funext a
    apply Fin.ext
    match a with
    | ⟨0, _⟩ => show win0_2.index t (0 : Fin 2) * 1 + 1 * (0 : Fin 1).val = (0 : Fin 1).val; rw [e0]; rfl
    | ⟨1, _⟩ => show win0_2.index t (1 : Fin 2) * 128 + 1 * j.val = j.val; rw [e1]; omega
  rw [hblk, V_main_v0]
  exact shapeCast_a_1a_apply _ _ (0 : Fin 1) j

end Cert.KernelIdeal.Hand

end
-- ==== Proof.KernelPay.lean ====
import proofs.«151730_g15607911154264_cont_week2b_145_8_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The idealized kernel's payloads, read at an index

Each payload of the kernel body is a pure term over the vectors loaded before it. Here every one of them is read
at an index over the extended reals: a matrix product into the zero accumulator is the sum of the products over
the contracted coordinate, the bias row is broadcast over the rows of a block, the column maximum of a block is
the supremum over its rows (the fold of `max` from −∞, which is the bottom element), and the last payload is the
softmax-weighted contraction divided by the column sums of the weights.
-/

noncomputable section

namespace Cert.KernelIdeal.Pay

open Cert.KernelIdeal Cert.KernelIdeal.Gen Idealize.ShloMosaic Idealize.ShloMosaic.ValueIdx
open scoped BigOperators

/-! ## Matrix products into the zero accumulator

For the dimension numbers `[1] × [0]` (rows times columns) the left operand is read at (row, contracted) and the
right one at (contracted, column). The four lemmas per record say which coordinate each operand index carries. -/

theorem lhs_xw_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_xw_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_xw_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_xw_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product of a 10000 × 128 matrix with a 128 × 128 one into the zero accumulator, at (k, j). -/
theorem matmul_xw_apply (x : FVec Ideal S10000x128 .f32) (w : FVec Ideal S128x128 .f32) (k : Fin 10000) (j : Fin 128) :
    matmul dot_S10000x128_S128x128_S10000x128_1_0_0_1_n_n none x w (constant (F := Ideal) S10000x128 .f32 0x00000000#32) (ix2 k j)
      = ∑ l : Fin 128, x (ix2 k l) * w (ix2 l j) := by
  refine (Ideal.matmul_constant_zero_apply dot_S10000x128_S128x128_S10000x128_1_0_0_1_n_n none x w (ix2 k j)).trans ?_
  rw [← Equiv.sum_comp (contrEquiv1 dot_S10000x128_S128x128_S10000x128_1_0_0_1_n_n 128 rfl rfl).symm]
  refine Finset.sum_congr rfl fun l _ => ?_
  have hl := contrEquiv1_symm_val dot_S10000x128_S128x128_S10000x128_1_0_0_1_n_n 128 rfl rfl l
  have el : dot_S10000x128_S128x128_S10000x128_1_0_0_1_n_n.lhsIdx (ix2 k j) ((contrEquiv1 dot_S10000x128_S128x128_S10000x128_1_0_0_1_n_n 128 rfl rfl).symm l) = ix2 k l := funext fun a => Fin.ext (by
    match a with
    | ⟨0, _⟩ => exact lhs_xw_0 _ _
    | ⟨1, _⟩ => exact (lhs_xw_1 _ _).trans hl)
  have er : dot_S10000x128_S128x128_S10000x128_1_0_0_1_n_n.rhsIdx (ix2 k j) ((contrEquiv1 dot_S10000x128_S128x128_S10000x128_1_0_0_1_n_n 128 rfl rfl).symm l) = ix2 l j := funext fun a => Fin.ext (by
    match a with
    | ⟨0, _⟩ => exact (rhs_xw_0 _ _).trans hl
    | ⟨1, _⟩ => exact rhs_xw_1 _ _)
  rw [el, er]

/-- The first payload: the support matrix `x · w`. -/
theorem pay3_apply (x : Vec Ideal S10000x128 .f32) (w : Vec Ideal S128x128 .f32) (k : Fin 10000) (j : Fin 128) :
    k0_pay3 (F := Ideal) x w (ix2 k j) = ∑ l : Fin 128, x (ix2 k l) * w (ix2 l j) := by
  unfold k0_pay3
  rw [shapeCast_self]
  exact matmul_xw_apply x w k j

theorem lhs_as_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhs_as_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem rhs_as_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem rhs_as_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The product of a 200-row block of the adjacency matrix with the support matrix into the zero accumulator, at (r, j). -/
theorem matmul_as_apply (a : FVec Ideal S200x10000 .f32) (s : FVec Ideal S10000x128 .f32) (r : Fin 200) (j : Fin 128) :
    matmul dot_S200x10000_S10000x128_S200x128_1_0_0_1_n_n none a s (constant (F := Ideal) S200x128 .f32 0x00000000#32) (ix2 r j)
      = ∑ k : Fin 10000, a (ix2 r k) * s (ix2 k j) := by
  refine (Ideal.matmul_constant_zero_apply dot_S200x10000_S10000x128_S200x128_1_0_0_1_n_n none a s (ix2 r j)).trans ?_
  rw [← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 r j) ((contrEquiv1 dot_S200x10000_S10000x128_S200x128_1_0_0_1_n_n 10000 rfl rfl).symm k) = ix2 r k := funext fun c => Fin.ext (by
    match c with
    | ⟨0, _⟩ => exact lhs_as_0 _ _
    | ⟨1, _⟩ => exact (lhs_as_1 _ _).trans hk)
  have er : dot_S200x10000_S10000x128_S200x128_1_0_0_1_n_n.rhsIdx (ix2 r j) ((contrEquiv1 dot_S200x10000_S10000x128_S200x128_1_0_0_1_n_n 10000 rfl rfl).symm k) = ix2 k j := funext fun c => Fin.ext (by
    match c with
    | ⟨0, _⟩ => exact (rhs_as_0 _ _).trans hk
    | ⟨1, _⟩ => exact rhs_as_1 _ _)
  rw [el, er]

/-! ## A block of the graph convolution: (block of the adjacency) · support + the bias row -/

theorem pay5_apply (a0 : Vec Ideal S200x10000 .f32) (s : Vec Ideal S10000x128 .f32) (b : Vec Ideal S1x128 .f32) (r : Fin 200) (j : Fin 128) :
    k0_pay5 (F := Ideal) a0 s b (ix2 r j) = (∑ k : Fin 10000, a0 (ix2 r k) * s (ix2 k j)) + b (ix2 (0 : Fin 1) j) := by
  unfold k0_pay5
  rw [shapeCast_self]
  refine (addf_apply _ _ (ix2 r j)).trans ?_
  rw [matmul_as_apply a0 s r j, broadcastTo_1b_ab_apply]

theorem pay6_apply (a1 : Vec Ideal S200x10000 .f32) (s : Vec Ideal S10000x128 .f32) (b : Vec Ideal S1x128 .f32) (r : Fin 200) (j : Fin 128) :
    k0_pay6 (F := Ideal) a1 s b (ix2 r j) = (∑ k : Fin 10000, a1 (ix2 r k) * s (ix2 k j)) + b (ix2 (0 : Fin 1) j) := by
  unfold k0_pay6
  rw [shapeCast_self]
  refine (addf_apply _ _ (ix2 r j)).trans ?_
  rw [matmul_as_apply a1 s r j, broadcastTo_1b_ab_apply]

/-- What is stored into the rows of the first block is that block itself. -/
theorem pay7_eq (a0 : Vec Ideal S200x10000 .f32) (s : Vec Ideal S10000x128 .f32) (b : Vec Ideal S1x128 .f32) :
    k0_pay7 (F := Ideal) a0 s b = k0_pay5 (F := Ideal) a0 s b := by
  unfold k0_pay7
  exact shapeCast_self _ _

/-- What is stored into the rows of the second block is that block itself. -/
theorem pay8_eq (a1 : Vec Ideal S200x10000 .f32) (s : Vec Ideal S10000x128 .f32) (b : Vec Ideal S1x128 .f32) :
    k0_pay8 (F := Ideal) a1 s b = k0_pay6 (F := Ideal) a1 s b := by
  unfold k0_pay8
  exact shapeCast_self _ _

/-! ## The running column maximum

The word `0xFF800000` is −∞, the bottom element of the extended reals, and `max` is the lattice's join there, so the
fold of `max` from −∞ over the rows of a block is the supremum over the rows. -/

/-- The f32 word of −∞ is the bottom element. -/
theorem ofBits_negInf_f32 : Ideal.ofBits .f32 0xFF800000#32 = (⊥ : EReal) := by simp [Ideal.ofBits, Ideal.ieee]

/-- A fold of `max` from the bottom element is the supremum. -/
theorem fold_max_bot_eq_sup {ι : Type} (t : Finset ι) (f : ι → EReal) : t.fold max (⊥ : EReal) f = t.sup f := by
  classical
  induction t using Finset.induction_on with
  | empty => rw [Finset.fold_empty, Finset.sup_empty]
  | insert a t ha ih => rw [Finset.fold_insert ha, Finset.sup_insert, ih]

/-- The reset value of the running maximum is −∞. -/
theorem pay4_apply (j : Fin 128) : k0_pay4 (F := Ideal) (ix2 (0 : Fin 1) j) = (⊥ : EReal) := by
  unfold k0_pay4
  rw [shapeCast_self]
  exact ofBits_negInf_f32

/-- The maximum over the rows of a 200 × 128 block from −∞, at lane `j`: the supremum over the rows of column `j`. -/
theorem colmax_apply (src : FVec Ideal S200x128 .f32) (h : S200x128.Reduces [0] S128) (hφ : FKind.Formats .f32)
    (hacc : (0xFF800000#32 : BitVec 32) = 0xFF800000#32) (j : Fin 128) :
    multiReduction .maximumf [0] S128 src 0xFF800000#32 h hφ hacc (ix1 j)
      = Finset.univ.sup fun r : Fin 200 => src (ix2 r j) := by
  refine (Ideal.multiReduction_maximumf_single src 0xFF800000#32 h hφ hacc (ix1 j)).trans ?_
  have e : (Finset.univ : Finset (Fin (S200x128.size 0))).fold max (FloatOps.ofBits (F := Ideal) .f32 0xFF800000#32) (src ∘ h.lift (ix1 j))
      = (Finset.univ : Finset (Fin (S200x128.size 0))).sup (src ∘ h.lift (ix1 j)) := by
    rw [Ideal.ofBits_def, ofBits_negInf_f32]
    exact fold_max_bot_eq_sup _ _
  refine e.trans (Finset.sup_congr rfl fun r _ => congrArg src (funext fun c => Fin.ext ?_))
  match c with
  | ⟨0, _⟩ => rfl
  | ⟨1, _⟩ => rfl

/-- The column maximum of the first block. -/
theorem pay9_apply (a0 : Vec Ideal S200x10000 .f32) (s : Vec Ideal S10000x128 .f32) (b : Vec Ideal S1x128 .f32) (j : Fin 128) :
    k0_pay9 (F := Ideal) a0 s b (ix2 (0 : Fin 1) j) = Finset.univ.sup fun r : Fin 200 => k0_pay5 (F := Ideal) a0 s b (ix2 r j) := by
  unfold k0_pay9
  refine (shapeCast_a_1a_apply _ _ (0 : Fin 1) j).trans ?_
  exact colmax_apply (k0_pay5 (F := Ideal) a0 s b) _ _ _ j

/-- The running maximum's update: the stored maximum against the two blocks' column maxima. -/
theorem pay1_apply (v16 : FVec Ideal S200x128 .f32) (v31 : FVec Ideal S1x128 .f32) (v35 : Vec Ideal S1x128 .f32) (j : Fin 128) :
    k0_pay1 (F := Ideal) v16 v31 v35 (ix2 (0 : Fin 1) j)
      = max (v35 (ix2 (0 : Fin 1) j)) (max (v31 (ix2 (0 : Fin 1) j)) (Finset.univ.sup fun r : Fin 200 => v16 (ix2 r j))) := by
  unfold k0_pay1
  rw [shapeCast_self]
  refine (maximumf_apply _ _ (ix2 (0 : Fin 1) j)).trans (congrArg (max (v35 (ix2 (0 : Fin 1) j))) ?_)
  refine (maximumf_apply _ _ (ix2 (0 : Fin 1) j)).trans (congrArg (max (v31 (ix2 (0 : Fin 1) j))) ?_)
  refine (shapeCast_a_1a_apply _ _ (0 : Fin 1) j).trans ?_
  exact colmax_apply v16 _ _ _ j

/-! ## The last block: softmax weights contracted with the features, over the column sums

With the dimension numbers `[0] × [0]` both operands are contracted along their rows: the left operand is read at
(contracted, result row) and the right one at (contracted, result column). -/

theorem lhs_ex_0 (i : S128x128.Idx) (q : dot_S10000x128_S10000x128_S128x128_0_0_1_1_n_n.contr.Idx) :
    (dot_S10000x128_S10000x128_S128x128_0_0_1_1_n_n.lhsIdx i q 0).val = (q ⟨0, by decide⟩).val :=
  dot_S10000x128_S10000x128_S128x128_0_0_1_1_n_n.lhsIdx_val_of_single rfl i q
theorem lhs_ex_1 (i : S128x128.Idx) (q : dot_S10000x128_S10000x128_S128x128_0_0_1_1_n_n.contr.Idx) :
    (dot_S10000x128_S10000x128_S128x128_0_0_1_1_n_n.lhsIdx i q 1).val = (i 0).val := by
  unfold DotDims.lhsIdx
  rw [dif_neg (show ¬(1 : Fin S10000x128.rank) ∈ dot_S10000x128_S10000x128_S128x128_0_0_1_1_n_n.lhsBatch by decide), dif_pos (show (1 : Fin S10000x128.rank) ∈ dot_S10000x128_S10000x128_S128x128_0_0_1_1_n_n.lhsNonContracting by decide)]
  rfl
theorem rhs_ex_0 (i : S128x128.Idx) (q : dot_S10000x128_S10000x128_S128x128_0_0_1_1_n_n.contr.Idx) :
    (dot_S10000x128_S10000x128_S128x128_0_0_1_1_n_n.rhsIdx i q 0).val = (q ⟨0, by decide⟩).val :=
  dot_S10000x128_S10000x128_S128x128_0_0_1_1_n_n.rhsIdx_val_of_single rfl i q
theorem rhs_ex_1 (i : S128x128.Idx) (q : dot_S10000x128_S10000x128_S128x128_0_0_1_1_n_n.contr.Idx) :
    (dot_S10000x128_S10000x128_S128x128_0_0_1_1_n_n.rhsIdx i q 1).val = (i 1).val := by
  unfold DotDims.rhsIdx
  rw [dif_neg (show ¬(1 : Fin S10000x128.rank) ∈ dot_S10000x128_S10000x128_S128x128_0_0_1_1_n_n.rhsBatch by decide), dif_pos (show (1 : Fin S10000x128.rank) ∈ dot_S10000x128_S10000x128_S128x128_0_0_1_1_n_n.rhsNonContracting by decide)]
  rfl

/-- The product, contracted along the 10000 rows of both operands, into the zero accumulator, at (j, k). -/
theorem matmul_ex_apply (e : FVec Ideal S10000x128 .f32) (x : FVec Ideal S10000x128 .f32) (j k : Fin 128) :
    matmul dot_S10000x128_S10000x128_S128x128_0_0_1_1_n_n none e x (constant (F := Ideal) S128x128 .f32 0x00000000#32) (ix2 j k)
      = ∑ i : Fin 10000, e (ix2 i j) * x (ix2 i k) := by
  refine (Ideal.matmul_constant_zero_apply dot_S10000x128_S10000x128_S128x128_0_0_1_1_n_n none e x (ix2 j k)).trans ?_
  rw [← Equiv.sum_comp (contrEquiv1 dot_S10000x128_S10000x128_S128x128_0_0_1_1_n_n 10000 rfl rfl).symm]
  refine Finset.sum_congr rfl fun i _ => ?_
  have hi := contrEquiv1_symm_val dot_S10000x128_S10000x128_S128x128_0_0_1_1_n_n 10000 rfl rfl i
  have el : dot_S10000x128_S10000x128_S128x128_0_0_1_1_n_n.lhsIdx (ix2 j k) ((contrEquiv1 dot_S10000x128_S10000x128_S128x128_0_0_1_1_n_n 10000 rfl rfl).symm i) = ix2 i j := funext fun c => Fin.ext (by
    match c with
    | ⟨0, _⟩ => exact (lhs_ex_0 _ _).trans hi
    | ⟨1, _⟩ => exact lhs_ex_1 _ _)
  have er : dot_S10000x128_S10000x128_S128x128_0_0_1_1_n_n.rhsIdx (ix2 j k) ((contrEquiv1 dot_S10000x128_S10000x128_S128x128_0_0_1_1_n_n 10000 rfl rfl).symm i) = ix2 i k := funext fun c => Fin.ext (by
    match c with
    | ⟨0, _⟩ => exact (rhs_ex_0 _ _).trans hi
    | ⟨1, _⟩ => exact rhs_ex_1 _ _)
  rw [el, er]

/-- The sum over the 10000 rows of a 10000 × 128 vector, at lane `j`. -/
theorem colsum_apply (src : FVec Ideal S10000x128 .f32) (h : S10000x128.Reduces [0] S128) (hφ : FKind.Formats .f32)
    (hacc : (0x00000000#32 : BitVec 32) = 0x00000000#32) (j : Fin 128) :
    multiReduction .add [0] S128 src 0x00000000#32 h hφ hacc (ix1 j) = ∑ i : Fin 10000, src (ix2 i j) := by
  refine (Ideal.multiReduction_add_single src 0x00000000#32 h hφ hacc (ix1 j)).trans ?_
  refine Finset.sum_congr rfl fun i _ => congrArg src (funext fun c => Fin.ext ?_)
  match c with
  | ⟨0, _⟩ => rfl
  | ⟨1, _⟩ => rfl

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The softmax weight at (i, c): the exponential of the entry less the column's running maximum. -/
theorem weight_apply (g : FVec Ideal S10000x128 .f32) (mm : FVec Ideal S1x128 .f32) (h : S1x128.Broadcasts S10000x128)
    (i : Fin 10000) (c : Fin 128) :
    Idealize.ShloMosaic.exp (subf g (broadcastTo S10000x128 mm h)) (ix2 i c) = Ideal.exp (g (ix2 i c) - mm (ix2 (0 : Fin 1) c)) := by
  show Ideal.exp (g (ix2 i c) - broadcastTo S10000x128 mm h (ix2 i c)) = _
  rw [broadcastTo_1b_ab_apply]

/-- The final block: the weights contracted with the features along the rows, divided by the weights' column sums. -/
theorem pay2_apply (g : Vec Ideal S10000x128 .f32) (mm : Vec Ideal S1x128 .f32) (x : Vec Ideal S10000x128 .f32) (j k : Fin 128) :
    k0_pay2 (F := Ideal) g mm x (ix2 j k)
      = Ideal.div (∑ i : Fin 10000, Ideal.exp (g (ix2 i j) - mm (ix2 (0 : Fin 1) j)) * x (ix2 i k))
          (∑ i : Fin 10000, Ideal.exp (g (ix2 i j) - mm (ix2 (0 : Fin 1) j))) := by
  unfold k0_pay2
  refine (divf_apply _ _ (ix2 j k)).trans (congrArg₂ Ideal.div ?_ ?_)
  · refine (matmul_ex_apply _ x j k).trans (Finset.sum_congr rfl fun i _ => ?_)
    exact congrArg (· * x (ix2 i k)) (weight_apply g mm _ i j)
  · refine (broadcastTo_a1_ab_apply _ _ j k).trans ?_
    refine (transpose_ix2_apply _ _ j (0 : Fin 1)).trans ?_
    refine (shapeCast_a_1a_apply _ _ (0 : Fin 1) j).trans ?_
    exact (colsum_apply _ _ _ _ j).trans (Finset.sum_congr rfl fun i _ => weight_apply g mm _ i j)

end Cert.KernelIdeal.Pay

end
-- ==== Proof.Spec.lean ====
/-
  The mathematics of the structural decoder, over the extended reals.

  From node features `x` (10000 × 128), an adjacency `a` (10000 × 10000), a weight `w` (128 × 128) and a bias `b` (128):
    support = x · w,   gcn = a · support + b,   e = exp (gcn − columnwise max of gcn),   z = columnwise sum of e,
  and the result (128 × 128) is the e-weighted, z-normalised sum of the rows of `x`. The two programs differ only in where
  they divide by `z`: after the contraction over the nodes (`outK`) or before it (`outR`). On finite inputs every entry of
  `gcn` is a real, so `e` is a positive real, `z` a positive real, and the division distributes over the sum.
-/
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨2, ![10000, 128]⟩
abbrev SA : Shape := ⟨2, ![10000, 10000]⟩
abbrev SW : Shape := ⟨2, ![128, 128]⟩
abbrev SB : Shape := ⟨1, ![128]⟩
abbrev SO : Shape := ⟨2, ![128, 128]⟩

variable (x : SX.Idx → EReal) (a : SA.Idx → EReal) (w : SW.Idx → EReal) (b : SB.Idx → EReal)

/-- support[k, j] = Σ_l x[k, l] · w[l, j]. -/
def support (k : Fin 10000) (j : Fin 128) : EReal := ∑ l : Fin 128, x (ix2 k l) * w (ix2 l j)

/-- gcn[i, j] = Σ_k a[i, k] · support[k, j] + b[j]. -/
def gcn (i : Fin 10000) (j : Fin 128) : EReal := (∑ k : Fin 10000, a (ix2 i k) * support x w k j) + b (ix1 j)

/-- The largest entry of column `j` of gcn (the bottom element −∞ being the maximum of nothing). -/
def cmax (j : Fin 128) : EReal := Finset.univ.sup fun i : Fin 10000 => gcn x a w b i j

/-- e[i, j] = exp (gcn[i, j] − cmax[j]). -/
def ex (i : Fin 10000) (j : Fin 128) : EReal := Ideal.exp (gcn x a w b i j - cmax x a w b j)

/-- z[j] = Σ_i e[i, j]. -/
def z (j : Fin 128) : EReal := ∑ i : Fin 10000, ex x a w b i j

/-- The kernel's arrangement: contract over the nodes, then divide by z. -/
def outK (j k : Fin 128) : EReal := Ideal.div (∑ i : Fin 10000, ex x a w b i j * x (ix2 i k)) (z x a w b j)

/-- The reference's arrangement: divide each weight by z, then contract over the nodes. -/
def outR (j k : Fin 128) : EReal := ∑ i : Fin 10000, Ideal.div (ex x a w b i j) (z x a w b j) * x (ix2 i k)

end Cert.Spec

end
-- ==== Proof.KernelValue.lean ====
/-
  The block the kernel's last grid point stores, read at an index over the extended reals, is the specification's outK.

  The first point's stored block is support = x · w; every point's two stored blocks are the rows 400 t ‥ 400 t + 399 of
  gcn = a · support + b; the running column maximum after point n is the maximum of gcn's column over the first
  400 (n + 1) rows, so after the last point it is the whole column's maximum; and the last payload is the softmax-weighted
  contraction of the features over the column sums of the weights. Every step is an identity of extended-real
  expressions: no finiteness is used.
-/
import proofs.«151730_g15607911154264_cont_week2b_145_8_alg».proof.Proof.KI.Blocks
import proofs.«151730_g15607911154264_cont_week2b_145_8_alg».proof.Proof.KernelPay
import proofs.«151730_g15607911154264_cont_week2b_145_8_alg».proof.Proof.Spec
import Mathlib.Order.Lattice
import Mathlib.Data.Finset.Lattice.Fold

noncomputable section

namespace Cert.KernelIdeal.KValue

open Cert.KernelIdeal Cert.KernelIdeal.Gen Cert.KernelIdeal.Hand Cert.KernelIdeal.Pay
open Idealize.ShloMosaic Idealize.ShloMosaic.TcCoe Idealize.ShloMosaic.ValueIdx Idealize.SL.Sem
open scoped BigOperators

variable (m : (ℓ : Loc nD τ sig) → Buf (Elt Ideal) ℓ) (c : Dev nD)

/-- The four argument arrays on core c as launched, at their literal types. -/
abbrev aX : Cert.Spec.SX.Idx → EReal := m ((c : Thread nD τ).loc main_arg0)
abbrev aA : Cert.Spec.SA.Idx → EReal := m ((c : Thread nD τ).loc main_arg1)
abbrev aW : Cert.Spec.SW.Idx → EReal := m ((c : Thread nD τ).loc main_arg2)
abbrev aB : Cert.Spec.SB.Idx → EReal := m ((c : Thread nD τ).loc main_arg3)

/-! ## The input blocks as the argument arrays -/

theorem bX_arg (t : Fin cfg0.N) (i : Fin 10000) (l : Fin 128) : bX m c t (ix2 i l) = aX m c (ix2 i l) :=
  (bX_apply m c t i l).trans (congrFun (V_main_arg0 m c) (ix2 i l))

theorem bW_arg (t : Fin cfg0.N) (l j : Fin 128) : bW m c t (ix2 l j) = aW m c (ix2 l j) :=
  (bW_apply m c t l j).trans (congrFun (V_main_arg2 m c) (ix2 l j))

theorem bB_arg (t : Fin cfg0.N) (j : Fin 128) : bB m c t (ix2 (0 : Fin 1) j) = aB m c (ix1 j) :=
  bB_apply m c t j

theorem bA0_arg (t : Fin cfg0.N) (r : Fin 200) (k : Fin 10000) :
    bA0 m c t (ix2 r k) = aA m c (ix2 ⟨400 * t.val + r.val, by have := lt_of_lt_of_eq t.isLt N_0; omega⟩ k) :=
  (bA0_apply m c t r k).trans (congrFun (V_main_arg1 m c) _)

theorem bA1_arg (t : Fin cfg0.N) (r : Fin 200) (k : Fin 10000) :
    bA1 m c t (ix2 r k) = aA m c (ix2 ⟨400 * t.val + 200 + r.val, by have := lt_of_lt_of_eq t.isLt N_0; omega⟩ k) :=
  (bA1_apply m c t r k).trans (congrFun (V_main_arg1 m c) _)

/-! ## support and the blocks of gcn -/

theorem supp_apply (k : Fin 10000) (j : Fin 128) : supp m c (ix2 k j) = Cert.Spec.support (aX m c) (aW m c) k j := by
  unfold supp Cert.Spec.support
  refine (pay3_apply _ _ k j).trans (Finset.sum_congr rfl fun l _ => ?_)
  rw [bX_arg m c (pt 0) k l, bW_arg m c (pt 0) l j]

theorem g0_apply (t : Fin cfg0.N) (r : Fin 200) (j : Fin 128) :
    g0 m c t (ix2 r j) = Cert.Spec.gcn (aX m c) (aA m c) (aW m c) (aB m c) ⟨400 * t.val + r.val, by have := lt_of_lt_of_eq t.isLt N_0; omega⟩ j := by
  unfold g0 Cert.Spec.gcn
  rw [pay7_eq]
  refine (pay5_apply _ _ _ r j).trans (congrArg₂ (· + ·) (Finset.sum_congr rfl fun k _ => ?_) (bB_arg m c t j))
  rw [bA0_arg m c t r k, supp_apply m c k j]

theorem g1_apply (t : Fin cfg0.N) (r : Fin 200) (j : Fin 128) :
    g1 m c t (ix2 r j) = Cert.Spec.gcn (aX m c) (aA m c) (aW m c) (aB m c) ⟨400 * t.val + 200 + r.val, by have := lt_of_lt_of_eq t.isLt N_0; omega⟩ j := by
  unfold g1 Cert.Spec.gcn
  rw [pay8_eq]
  refine (pay6_apply _ _ _ r j).trans (congrArg₂ (· + ·) (Finset.sum_congr rfl fun k _ => ?_) (bB_arg m c t j))
  rw [bA1_arg m c t r k, supp_apply m c k j]

/-! ## gcn assembled from the blocks -/

theorem gcnArr_apply (i : Fin 10000) (j : Fin 128) :
    gcnArr m c (ix2 i j) = Cert.Spec.gcn (aX m c) (aA m c) (aW m c) (aB m c) i j := by
  have hi := i.isLt
  have hq : (pt (i.val / 400)).val = i.val / 400 := pt_val _ (by omega)
  unfold gcnArr
  show (if h : i.val % 400 < 200 then g0 m c (pt (i.val / 400)) (ix2 ⟨i.val % 400, h⟩ ⟨j.val, j.isLt⟩)
      else g1 m c (pt (i.val / 400)) (ix2 ⟨i.val % 400 - 200, _⟩ ⟨j.val, j.isLt⟩)) = _
  by_cases h : i.val % 400 < 200
  · rw [dif_pos h]
    refine (g0_apply m c _ _ _).trans ?_
    refine congrArg₂ (Cert.Spec.gcn (aX m c) (aA m c) (aW m c) (aB m c)) (Fin.ext ?_) rfl
    show 400 * (pt (i.val / 400)).val + i.val % 400 = i.val
    rw [hq]; omega
  · rw [dif_neg h]
    refine (g1_apply m c _ _ _).trans ?_
    refine congrArg₂ (Cert.Spec.gcn (aX m c) (aA m c) (aW m c) (aB m c)) (Fin.ext ?_) rfl
    show 400 * (pt (i.val / 400)).val + 200 + (i.val % 400 - 200) = i.val
    rw [hq]; omega

/-! ## The running column maximum -/

/-- One point's update: the stored maximum against the column maxima of the point's two blocks of gcn. -/
theorem mStep_apply (t : Fin cfg0.N) (prev : Vec Ideal S1x128 .f32) (j : Fin 128) :
    mStep m c t prev (ix2 (0 : Fin 1) j)
      = max (prev (ix2 (0 : Fin 1) j))
          (max (Finset.univ.sup fun r : Fin 200 => Cert.Spec.gcn (aX m c) (aA m c) (aW m c) (aB m c) ⟨400 * t.val + r.val, by have := lt_of_lt_of_eq t.isLt N_0; omega⟩ j)
            (Finset.univ.sup fun r : Fin 200 => Cert.Spec.gcn (aX m c) (aA m c) (aW m c) (aB m c) ⟨400 * t.val + 200 + r.val, by have := lt_of_lt_of_eq t.isLt N_0; omega⟩ j)) := by
  unfold mStep
  refine (pay1_apply _ _ prev j).trans (congrArg (max (prev (ix2 (0 : Fin 1) j))) (congrArg₂ max ?_ ?_))
  · refine (pay9_apply _ _ _ j).trans (Finset.sup_congr rfl fun r _ => ?_)
    have e := g0_apply m c t r j
    unfold g0 at e
    rw [pay7_eq] at e
    exact e
  · refine Finset.sup_congr rfl fun r _ => ?_
    have e := g1_apply m c t r j
    unfold g1 at e
    rw [pay8_eq] at e
    exact e

/-- The maximum of a column over the first 400 (n + 1) rows is that over the first 400 n rows against the maxima over
    the next two blocks of 200 rows. -/
theorem sup_rows_succ (f : Fin 10000 → EReal) (t : Fin cfg0.N) (n : ℕ) (ht : t.val = n) :
    ((Finset.univ.filter fun i : Fin 10000 => i.val < 400 * (n + 1)).sup f)
      = max ((Finset.univ.filter fun i : Fin 10000 => i.val < 400 * n).sup f)
          (max (Finset.univ.sup fun r : Fin 200 => f ⟨400 * t.val + r.val, by have := lt_of_lt_of_eq t.isLt N_0; omega⟩)
            (Finset.univ.sup fun r : Fin 200 => f ⟨400 * t.val + 200 + r.val, by have := lt_of_lt_of_eq t.isLt N_0; omega⟩)) := by
  subst ht
  have htl : t.val < 25 := lt_of_lt_of_eq t.isLt N_0
  refine le_antisymm (Finset.sup_le fun i hi => ?_) (max_le (Finset.sup_le fun i hi => ?_) (max_le (Finset.sup_le fun r _ => ?_) (Finset.sup_le fun r _ => ?_)))
  · have hi' : i.val < 400 * (t.val + 1) := (Finset.mem_filter.1 hi).2
    by_cases h0 : i.val < 400 * t.val
    · exact le_max_of_le_left (Finset.le_sup (f := f) (Finset.mem_filter.2 ⟨Finset.mem_univ i, h0⟩))
    · by_cases h1 : i.val < 400 * t.val + 200
      · have e : i = ⟨400 * t.val + (⟨i.val - 400 * t.val, by omega⟩ : Fin 200).val, by have := i.isLt; show 400 * t.val + (i.val - 400 * t.val) < 10000; omega⟩ :=
          Fin.ext (by show i.val = 400 * t.val + (i.val - 400 * t.val); omega)
        refine le_max_of_le_right (le_max_of_le_left ?_)
        refine le_of_eq_of_le (congrArg f e) ?_
        exact Finset.le_sup (f := fun r : Fin 200 => f ⟨400 * t.val + r.val, by have := lt_of_lt_of_eq t.isLt N_0; omega⟩) (Finset.mem_univ (⟨i.val - 400 * t.val, by omega⟩ : Fin 200))
      · have e : i = ⟨400 * t.val + 200 + (⟨i.val - 400 * t.val - 200, by omega⟩ : Fin 200).val, by have := i.isLt; show 400 * t.val + 200 + (i.val - 400 * t.val - 200) < 10000; omega⟩ :=
          Fin.ext (by show i.val = 400 * t.val + 200 + (i.val - 400 * t.val - 200); omega)
        refine le_max_of_le_right (le_max_of_le_right ?_)
        refine le_of_eq_of_le (congrArg f e) ?_
        exact Finset.le_sup (f := fun r : Fin 200 => f ⟨400 * t.val + 200 + r.val, by have := lt_of_lt_of_eq t.isLt N_0; omega⟩) (Finset.mem_univ (⟨i.val - 400 * t.val - 200, by omega⟩ : Fin 200))
  · have hi' : i.val < 400 * t.val := (Finset.mem_filter.1 hi).2
    exact Finset.le_sup (f := f) (Finset.mem_filter.2 ⟨Finset.mem_univ i, by omega⟩)
  · have hr := r.isLt
    exact Finset.le_sup (f := f) (Finset.mem_filter.2 ⟨Finset.mem_univ _, by show 400 * t.val + r.val < 400 * (t.val + 1); omega⟩)
  · have hr := r.isLt
    exact Finset.le_sup (f := f) (Finset.mem_filter.2 ⟨Finset.mem_univ _, by show 400 * t.val + 200 + r.val < 400 * (t.val + 1); omega⟩)

/-- The maximum over no rows is the bottom element. -/
theorem sup_rows_zero (f : Fin 10000 → EReal) : ((Finset.univ.filter fun i : Fin 10000 => i.val < 400 * 0).sup f) = ⊥ :=
  le_antisymm (Finset.sup_le fun i hi => absurd (Finset.mem_filter.1 hi).2 (by omega)) bot_le

/-- The running maximum after point n is the maximum of gcn's column over the first 400 (n + 1) rows. -/
theorem mAfter_apply (n : ℕ) (hn : n < 25) (j : Fin 128) :
    mAfter m c n (ix2 (0 : Fin 1) j) = (Finset.univ.filter fun i : Fin 10000 => i.val < 400 * (n + 1)).sup fun i => Cert.Spec.gcn (aX m c) (aA m c) (aW m c) (aB m c) i j := by
  induction n with
  | zero =>
    show mStep m c (pt 0) (k0_pay4 (F := Ideal)) (ix2 (0 : Fin 1) j) = _
    rw [mStep_apply m c (pt 0) _ j, pay4_apply j,
      sup_rows_succ (fun i => Cert.Spec.gcn (aX m c) (aA m c) (aW m c) (aB m c) i j) (pt 0) 0 (pt_val 0 hn), sup_rows_zero]
  | succ n ih =>
    show mStep m c (pt (n + 1)) (mAfter m c n) (ix2 (0 : Fin 1) j) = _
    rw [mStep_apply m c (pt (n + 1)) _ j, ih (by omega),
      sup_rows_succ (fun i => Cert.Spec.gcn (aX m c) (aA m c) (aW m c) (aB m c) i j) (pt (n + 1)) (n + 1) (pt_val (n + 1) hn)]

theorem mFinal_apply (j : Fin 128) : mAfter m c 24 (ix2 (0 : Fin 1) j) = Cert.Spec.cmax (aX m c) (aA m c) (aW m c) (aB m c) j := by
  rw [mAfter_apply m c 24 (by norm_num) j]
  unfold Cert.Spec.cmax
  rw [Finset.filter_true_of_mem fun (i : Fin 10000) _ => (by have := i.isLt; omega : i.val < 400 * (24 + 1))]

/-! ## The stored block -/

/-- THE RESULT: the stored block is the specification's outK. -/
theorem outv_apply (j k : Fin 128) : outv m c (ix2 j k) = Cert.Spec.outK (aX m c) (aA m c) (aW m c) (aB m c) j k := by
  unfold outv Cert.Spec.outK Cert.Spec.z Cert.Spec.ex
  refine (pay2_apply _ _ _ j k).trans (congrArg₂ Ideal.div (Finset.sum_congr rfl fun i _ => ?_) (Finset.sum_congr rfl fun i _ => ?_))
  · rw [gcnArr_apply m c i j, mFinal_apply m c j, bX_arg m c (pt 24) i k]
  · rw [gcnArr_apply m c i j, mFinal_apply m c j]

end Cert.KernelIdeal.KValue

end
-- ==== Proof.RefRun.lean ====
/-
  The reference's run and its read-at-an-index lemmas, brought in for the modules that compare values.
-/
import proofs.«151730_g15607911154264_cont_week2b_145_8_alg».proof.Proof.Gen.ReferenceIdeal.Run
import proofs.«151730_g15607911154264_cont_week2b_145_8_alg».proof.Proof.Gen.ReferenceIdeal.Read
-- ==== Proof.RefSpec.lean ====
/-
  The reference program, read one operation at a time, is the specification's second arrangement:
  at (j, k) it is Σ_i (e[i, j] / z[j]) · x[i, k].
-/
import proofs.«151730_g15607911154264_cont_week2b_145_8_alg».proof.Proof.Gen.ReferenceIdeal.Read
import proofs.«151730_g15607911154264_cont_week2b_145_8_alg».proof.Proof.Spec
import Idealize.ShloMosaic.PureOps.Ideal.Laws
import Idealize.ShloMosaic.PureOps.Reduce
import Idealize.ShloMosaic.Lib.ValueIdx
import Mathlib.Order.BoundedOrder.Lattice
import Mathlib.Data.Finset.Lattice.Fold
import Mathlib.Data.EReal.Basic

noncomputable section

namespace Cert.ReferenceIdeal.RefValue

open Cert.ReferenceIdeal Cert.ReferenceIdeal.Gen Cert.ReferenceIdeal.Read Idealize.ShloMosaic Idealize.ShloMosaic.ValueIdx
open scoped BigOperators

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))

/-- The first product at (k, j) is Σ_l x[k, l] · w[l, j]. -/
theorem support_at (k : Fin 10000) (j : Fin 128) :
    val_main_v0 (F := Ideal) x0 x2 (ix2 k j) = Cert.Spec.support x0 x2 k j := by
  rw [val_main_v0_apply]
  unfold Cert.Spec.support
  refine Finset.sum_congr rfl fun l _ => ?_
  have el : lidx_main_v0 (ix2 k j) l = ix2 k l :=
    funext fun a => Fin.ext (by match a with | ⟨0, _⟩ => rfl | ⟨1, _⟩ => rfl)
  have er : ridx_main_v0 (ix2 k j) l = ix2 l j :=
    funext fun a => Fin.ext (by match a with | ⟨0, _⟩ => rfl | ⟨1, _⟩ => rfl)
  rw [el, er]

/-- The second product plus the bias, at (i, j), is Σ_k a[i, k] · support[k, j] + b[j]. -/
theorem gcn_at (i : Fin 10000) (j : Fin 128) :
    val_main_v4 (F := Ideal) x0 x1 x2 x3 (ix2 i j) = Cert.Spec.gcn x0 x1 x2 x3 i j := by
  rw [val_main_v4_apply, val_main_v1_apply, val_main_v3_apply, val_main_v2_apply]
  unfold Cert.Spec.gcn
  rw [Ideal.addf_def]
  have eb : idx_main_v2 (idx_main_v3 (ix2 i j)) = ix1 j :=
    funext fun a => Fin.ext (by match a with | ⟨0, _⟩ => rfl)
  rw [eb]
  refine congrArg (· + x3 (ix1 j)) (Finset.sum_congr rfl fun k _ => ?_)
  have el : lidx_main_v1 (ix2 i j) k = ix2 i k :=
    funext fun a => Fin.ext (by match a with | ⟨0, _⟩ => rfl | ⟨1, _⟩ => rfl)
  have er : ridx_main_v1 (ix2 i j) k = ix2 k j :=
    funext fun a => Fin.ext (by match a with | ⟨0, _⟩ => rfl | ⟨1, _⟩ => rfl)
  rw [el, er, support_at]

/-- The word 0xFF800000 denotes −∞, the bottom element. -/
theorem ofBits_neg_inf_f32 : Ideal.ofBits .f32 0xFF800000#32 = (⊥ : EReal) := by
  simp [Ideal.ofBits, Ideal.ieee]

/-- The columnwise maximum at j, the fold of max from −∞ over the rows, is the supremum of column j of gcn. -/
theorem cmax_at (j : Fin 128) :
    val_main_v7 (F := Ideal) x0 x1 x2 x3 (ix1 j) = Cert.Spec.cmax x0 x1 x2 x3 j := by
  have hred : S10000x128.Reduces [0] S128 := by decide
  rw [val_main_v7_apply, val_main_v6_apply, val_main_cst_0_apply]
  unfold val_main_v5
  rw [Host.reduce_eq_fold_single FloatOps.maximumf _ _ reducesTo_S10000x128_S128_d0 hred h_S_ (ix1 j)]
  rw [val_main_cst_apply, Ideal.ofBits_def, ofBits_neg_inf_f32, Ideal.maximumf_def]
  rw [max_bot_left]
  unfold Cert.Spec.cmax
  show Finset.univ.sup (fun i : Fin 10000 => val_main_v4 (F := Ideal) x0 x1 x2 x3 (hred.lift (ix1 j) i))
      = Finset.univ.sup fun i : Fin 10000 => Cert.Spec.gcn x0 x1 x2 x3 i j
  refine Finset.sup_congr rfl fun i _ => ?_
  have e : hred.lift (ix1 j) i = ix2 i j :=
    funext fun a => Fin.ext (by match a with | ⟨0, _⟩ => rfl | ⟨1, _⟩ => rfl)
  rw [e, gcn_at]

/-- The exponential of gcn less its column's maximum, at (i, j). -/
theorem ex_at (i : Fin 10000) (j : Fin 128) :
    val_main_v11 (F := Ideal) x0 x1 x2 x3 (ix2 i j) = Cert.Spec.ex x0 x1 x2 x3 i j := by
  rw [val_main_v11_apply, val_main_v10_apply, val_main_v9_apply, val_main_v8_apply]
  have e : idx_main_v8 (idx_main_v9 (ix2 i j)) = ix1 j :=
    funext fun a => Fin.ext (by match a with | ⟨0, _⟩ => rfl)
  rw [e, gcn_at, cmax_at, Ideal.hostUnary_exp_def, Ideal.subf_def]
  rfl

/-- The columnwise sum of the exponentials, from the zero word, at j. -/
theorem z_at (j : Fin 128) :
    val_main_v12 (F := Ideal) x0 x1 x2 x3 (ix1 j) = Cert.Spec.z x0 x1 x2 x3 j := by
  rw [val_main_v12_apply, val_main_cst_1_apply, Ideal.ofBits_def, Ideal.ofBits_zero_f32, zero_add]
  unfold Cert.Spec.z
  refine Finset.sum_congr rfl fun i _ => ?_
  have e : idx_main_v12 (ix1 j) i = ix2 i j :=
    funext fun a => Fin.ext (by match a with | ⟨0, _⟩ => rfl | ⟨1, _⟩ => rfl)
  rw [e, ex_at]

/-- The normalised weight at (i, j): e[i, j] / z[j]. -/
theorem quot_at (i : Fin 10000) (j : Fin 128) :
    val_main_v15 (F := Ideal) x0 x1 x2 x3 (ix2 i j)
      = Ideal.div (Cert.Spec.ex x0 x1 x2 x3 i j) (Cert.Spec.z x0 x1 x2 x3 j) := by
  rw [val_main_v15_apply, val_main_v14_apply, val_main_v13_apply]
  have e : idx_main_v13 (idx_main_v14 (ix2 i j)) = ix1 j :=
    funext fun a => Fin.ext (by match a with | ⟨0, _⟩ => rfl)
  rw [e, ex_at, z_at, Ideal.hostDivf_def]

/-- Index by index the reference computes Σ_i (e[i,j] / z[j]) · x[i,k]. -/
theorem ref_is_outR (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) (j k : Fin 128) :
    val_main_v17 (F := Ideal) x0 x1 x2 x3 (ix2 j k) = Cert.Spec.outR x0 x1 x2 x3 j k := by
  rw [val_main_v17_apply]
  unfold Cert.Spec.outR
  refine Finset.sum_congr rfl fun i _ => ?_
  have el : idx_main_v16 (lidx_main_v17 (ix2 j k) i) = ix2 i j :=
    funext fun a => Fin.ext (by match a with | ⟨0, _⟩ => rfl | ⟨1, _⟩ => rfl)
  have er : ridx_main_v17 (ix2 j k) i = ix2 i k :=
    funext fun a => Fin.ext (by match a with | ⟨0, _⟩ => rfl | ⟨1, _⟩ => rfl)
  rw [val_main_v16_apply, el, er, quot_at]

end Cert.ReferenceIdeal.RefValue

end
-- ==== Proof.SpecLaw.lean ====
/-
  The laws of the structural decoder's mathematics on finite inputs.

  When every entry of the four inputs is a real, every intermediate quantity is a real: the support, the
  graph convolution, its columnwise maximum; the exponentials are positive reals, and so is their columnwise sum.
  Dividing by that sum is then multiplying by a real reciprocal, which commutes with the finite sum over the nodes.
-/
import proofs.«151730_g15607911154264_cont_week2b_145_8_alg».proof.Proof.Spec
import Mathlib.Data.EReal.Basic
import Mathlib.Data.EReal.Operations
import Mathlib.Data.EReal.Inv
import Mathlib.Data.Finset.Lattice.Fold
import Mathlib.Algebra.BigOperators.Ring.Finset
import Mathlib.Algebra.Order.BigOperators.Ring.Finset
import Mathlib.Analysis.SpecialFunctions.Exp

noncomputable section

namespace Cert.Spec

open Idealize.ShloMosaic Idealize.ShloMosaic.ValueIdx
open scoped BigOperators

/-- Every entry a real. -/
def Real' {S : Shape} (v : S.Idx → EReal) : Prop := ∀ i, ∃ r : ℝ, v i = (r : EReal)

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem sum_real {ι : Type} (s : Finset ι) (f : ι → EReal) (h : ∀ i ∈ s, ∃ r : ℝ, f i = (r : EReal)) :
    ∃ r : ℝ, ∑ i ∈ s, f i = (r : EReal) := by
  choose! g hg using h
  exact ⟨∑ i ∈ s, g i, by rw [coe_sum]; exact Finset.sum_congr rfl hg⟩

variable {x : SX.Idx → EReal} {a : SA.Idx → EReal} {w : SW.Idx → EReal} {b : SB.Idx → EReal}

theorem support_real (hx : Real' x) (hw : Real' w) (k : Fin 10000) (j : Fin 128) :
    ∃ r : ℝ, support x w k j = (r : EReal) := by
  unfold support
  apply sum_real
  intro l _
  obtain ⟨r1, h1⟩ := hx (ix2 k l)
  obtain ⟨r2, h2⟩ := hw (ix2 l j)
  exact ⟨r1 * r2, by rw [h1, h2, EReal.coe_mul]⟩

theorem gcn_real (hx : Real' x) (ha : Real' a) (hw : Real' w) (hb : Real' b) (i : Fin 10000) (j : Fin 128) :
    ∃ r : ℝ, gcn x a w b i j = (r : EReal) := by
  unfold gcn
  have hs : ∃ r : ℝ, (∑ k : Fin 10000, a (ix2 i k) * support x w k j) = (r : EReal) := by
    apply sum_real
    intro k _
    obtain ⟨r1, h1⟩ := ha (ix2 i k)
    obtain ⟨r2, h2⟩ := support_real hx hw k j
    exact ⟨r1 * r2, by rw [h1, h2, EReal.coe_mul]⟩
  obtain ⟨s, hs⟩ := hs
  obtain ⟨c, hc⟩ := hb (ix1 j)
  exact ⟨s + c, by rw [hs, hc, EReal.coe_add]⟩

theorem cmax_real (hx : Real' x) (ha : Real' a) (hw : Real' w) (hb : Real' b) (j : Fin 128) :
    ∃ r : ℝ, cmax x a w b j = (r : EReal) := by
  unfold cmax
  obtain ⟨i, _, hi⟩ := Finset.exists_mem_eq_sup (Finset.univ : Finset (Fin 10000)) Finset.univ_nonempty
    (fun i : Fin 10000 => gcn x a w b i j)
  obtain ⟨r, hr⟩ := gcn_real hx ha hw hb i j
  exact ⟨r, by rw [hi, hr]⟩

theorem ex_pos_real (hx : Real' x) (ha : Real' a) (hw : Real' w) (hb : Real' b) (i : Fin 10000) (j : Fin 128) :
    ∃ r : ℝ, 0 < r ∧ ex x a w b i j = (r : EReal) := by
  unfold ex
  obtain ⟨g, hg⟩ := gcn_real hx ha hw hb i j
  obtain ⟨c, hc⟩ := cmax_real hx ha hw hb j
  exact ⟨Real.exp (g - c), Real.exp_pos _, by rw [hg, hc, ← EReal.coe_sub, Ideal.exp_coe]⟩

theorem z_pos_real (hx : Real' x) (ha : Real' a) (hw : Real' w) (hb : Real' b) (j : Fin 128) :
    ∃ r : ℝ, 0 < r ∧ z x a w b j = (r : EReal) := by
  unfold z
  choose e he using fun i : Fin 10000 => ex_pos_real hx ha hw hb i j
  refine ⟨∑ i : Fin 10000, e i, Finset.sum_pos (fun i _ => (he i).1) Finset.univ_nonempty, ?_⟩
  rw [coe_sum]
  exact Finset.sum_congr rfl (fun i _ => (he i).2)

/-- THE LAW: on finite inputs dividing by z before or after the contraction over the nodes is the same. -/
theorem outR_eq_outK (hx : Real' x) (ha : Real' a) (hw : Real' w) (hb : Real' b) (j k : Fin 128) :
    outR x a w b j k = outK x a w b j k := by
  unfold outR outK
  choose e he using fun i : Fin 10000 => ex_pos_real hx ha hw hb i j
  obtain ⟨Z, hZpos, hZ⟩ := z_pos_real hx ha hw hb j
  choose xr hxr using fun i : Fin 10000 => hx (ix2 i k)
  have hZne : Z ≠ 0 := ne_of_gt hZpos
  -- dividing by z is multiplying by one real constant
  obtain ⟨c, hc⟩ : ∃ c : ℝ, ∀ t : EReal, Ideal.div t (z x a w b j) = t * (c : EReal) :=
    ⟨1 / Z, fun t => by rw [hZ, Ideal.div_coe hZne]⟩
  -- the reference's side: a sum of reals
  have hR : (∑ i : Fin 10000, Ideal.div (ex x a w b i j) (z x a w b j) * x (ix2 i k))
      = ((∑ i : Fin 10000, e i * c * xr i : ℝ) : EReal) := by
    rw [coe_sum]
    refine Finset.sum_congr rfl (fun i _ => ?_)
    rw [hc, (he i).2, hxr i, EReal.coe_mul, EReal.coe_mul]
  -- the kernel's side: a real sum times the real constant
  have hK : Ideal.div (∑ i : Fin 10000, ex x a w b i j * x (ix2 i k)) (z x a w b j)
      = (((∑ i : Fin 10000, e i * xr i) * c : ℝ) : EReal) := by
    rw [hc, EReal.coe_mul, coe_sum]
    refine congrArg (fun t : EReal => t * (c : EReal)) ?_
    refine Finset.sum_congr rfl (fun i _ => ?_)
    rw [(he i).2, hxr i, EReal.coe_mul]
  rw [hR, hK, Finset.sum_mul]
  refine congrArg (fun r : ℝ => (r : EReal)) ?_
  refine Finset.sum_congr rfl (fun i _ => ?_)
  ring

end Cert.Spec

end
-- ==== Proof.Finite.lean ====
import proofs.«151730_g15607911154264_cont_week2b_145_8_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws
import Mathlib.Data.EReal.Basic

noncomputable section

namespace Cert.Finite

open Idealize.ShloMosaic Cert.Pre_finite_inputs

/-- The empty shape has exactly one index. -/
instance : Subsingleton S_.Idx := ⟨fun a b => funext fun d => d.elim0⟩

/-- The f32 pattern `0x7F800000` denotes `+∞`. -/
theorem ofBits_inf : Ideal.ofBits .f32 0x7F800000#32 = (⊤ : EReal) := by
  simp [Ideal.ofBits, Ideal.ieee]

/-- An extended real whose absolute value `max x (-x)` is strictly below `+∞` (as the order comparison answers 1)
    is a real number. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | top => exact absurd h (by simp [Ideal.cmp])
  | coe r => exact ⟨r, rfl⟩

/-- If the precondition's function is all ones, every entry of the four arrays is a real number. -/
theorem real_of_pre [Cert.Pre_finite_inputs.Facts]
    (x0 : FVec Ideal S10000x128 .f32) (x1 : FVec Ideal S10000x10000 .f32) (x2 : FVec Ideal S128x128 .f32) (x3 : FVec Ideal S128 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1] at h0
  -- the four bits of the conjunction
  obtain ⟨h012, e3⟩ := IntOp.andi_eq_one.1 h0
  obtain ⟨h01, e2⟩ := IntOp.andi_eq_one.1 h012
  obtain ⟨e0, e1⟩ := IntOp.andi_eq_one.1 h01
  -- each bit is a conjunction over all entries of `|x| < +∞`, read at an entry
  refine ⟨fun i => ?_, fun i => ?_, fun i => ?_, fun i => ?_⟩
  · exact real_of_abs_lt_top (x0 i) (Host.reduce_andi_all _ _ _ _ _ e0 i)
  · exact real_of_abs_lt_top (x1 i) (Host.reduce_andi_all _ _ _ _ _ e1 i)
  · exact real_of_abs_lt_top (x2 i) (Host.reduce_andi_all _ _ _ _ _ e2 i)
  · exact real_of_abs_lt_top (x3 i) (Host.reduce_andi_all _ _ _ _ _ e3 i)

end Cert.Finite
-- ==== Proof.lean ====
/-
  The certificate of the structural-decoder kernel against its reference.

  The kernel streams the adjacency matrix once, two 200-row blocks per grid point, keeping support = x · w, the rows of
  gcn = a · support + b computed so far and the running column maximum in scratch; its last point exponentiates gcn minus the
  column maximum, sums the exponentials down each column (z), contracts them with x over the nodes and divides by z. The
  reference computes the softmax over the nodes first (each exponential divided by its column's z) and then contracts with
  x. At the ideal instance both are expressions over the extended reals; on finite inputs every entry of gcn is a real, so the
  exponentials and z are positive reals and the division distributes over the sum over the nodes: the two results are equal.

  The three frames: the two kernel programs run through the pipeline library's launch for windows that share an array (both
  adjacency windows read one array, each holding half of it), over proof data that name what the scratch buffers hold point
  by point; the reference's frame is its run with the result dropped. The idealization rewrote nothing, so `preserves` holds
  trivially.
-/
import proofs.«151730_g15607911154264_cont_week2b_145_8_alg».proof.Defs
import proofs.«151730_g15607911154264_cont_week2b_145_8_alg».proof.Proof.Gen.Kernel
import proofs.«151730_g15607911154264_cont_week2b_145_8_alg».proof.Proof.Gen.KernelIdeal
import proofs.«151730_g15607911154264_cont_week2b_145_8_alg».proof.Proof.Gen.ReferenceIdeal
import proofs.«151730_g15607911154264_cont_week2b_145_8_alg».proof.Proof.Gen.Pre_finite_inputs
import proofs.«151730_g15607911154264_cont_week2b_145_8_alg».proof.Proof.K.Launch
import proofs.«151730_g15607911154264_cont_week2b_145_8_alg».proof.Proof.KI.Launch
import proofs.«151730_g15607911154264_cont_week2b_145_8_alg».proof.Proof.KernelValue
import proofs.«151730_g15607911154264_cont_week2b_145_8_alg».proof.Proof.RefRun
import proofs.«151730_g15607911154264_cont_week2b_145_8_alg».proof.Proof.RefSpec
import proofs.«151730_g15607911154264_cont_week2b_145_8_alg».proof.Proof.SpecLaw
import proofs.«151730_g15607911154264_cont_week2b_145_8_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance the kernel's result array ends at the block its last point stores, which index by index is
    (Σ_i e[i,j] · x[i,k]) / z[j]; the reference's ends at Σ_i (e[i,j] / z[j]) · x[i,k] of arguments that agree; on finite
    inputs the two are equal. -/
theorem algebraic : Cert.algebraic_KernelIdeal_ReferenceIdeal := by
  intro m ρ m' ρ' hpre hagree
  refine ⟨fun c => Cert.KernelIdeal.Hand.outv m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq _ _ _ _).trans ?_
  rw [(hagree c).1, (hagree c).2.1, (hagree c).2.2.1, (hagree c).2.2.2]
  obtain ⟨hx, ha, hw, hb⟩ := Cert.Finite.real_of_pre _ _ _ _ (hpre c)
  funext idx
  obtain ⟨j, k, rfl⟩ : ∃ (j k : Fin 128), idx = ix2 j k := ⟨idx 0, idx 1, eq_ix2 idx⟩
  exact (Cert.ReferenceIdeal.RefValue.ref_is_outR _ _ _ _ j k).trans
    ((Cert.Spec.outR_eq_outK hx ha hw hb j k).trans (Cert.KernelIdeal.KValue.outv_apply m c j k).symm)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
